-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024x1024 : Shape := ⟨2, ![1024, 1024]⟩
abbrev S1024 : Shape := ⟨1, ![1024]⟩
abbrev S8x128 : Shape := ⟨2, ![8, 128]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S8x128 : S_.BroadcastsInDim S8x128 (![] : Fin 0 → Fin S8x128.rank)
  reducesTo_S8x128_S_d0_1 : S8x128.ReducesTo [0, 1] S_

variable [Facts]

def fn_part3 {F : FTy → Type} [FloatOps F] (main_arg11 : FVec F S8x128 .f32) (main_arg12 : FVec F S8x128 .f32) (main_v48 : IVec S_ 1) (main_v49 : FVec F S8x128 .f32) (main_v50 : FVec F S8x128 .f32) : IVec S_ 1 :=
  let main_v51 : IVec S8x128 1 := cmpf .olt main_v49 main_v50
  let main_c_19 : IVec S_ 1 := constantI S_ 1 1#1
  let main_v52 : IVec S_ 1 := (fun x v => Host.reduce IntOp.andi x v reducesTo_S8x128_S_d0_1 h_S_) main_v51 main_c_19
  let main_v53 : IVec S_ 1 := andi main_v48 main_v52
  let main_v54 : FVec F S8x128 .f32 := Host.absf main_arg11
  let main_cst_20 : FVec F S_ .f32 := constant S_ .f32 0x7F800000#32
  let main_v55 : FVec F S8x128 .f32 := broadcastInDim S8x128 ![] bcast_S_S8x128 main_cst_20
  let main_v56 : IVec S8x128 1 := cmpf .olt main_v54 main_v55
  let main_c_21 : IVec S_ 1 := constantI S_ 1 1#1
  let main_v57 : IVec S_ 1 := (fun x v => Host.reduce IntOp.andi x v reducesTo_S8x128_S_d0_1 h_S_) main_v56 main_c_21
  let main_v58 : IVec S_ 1 := andi main_v53 main_v57
  let main_v59 : FVec F S8x128 .f32 := Host.absf main_arg12
  let main_cst_22 : FVec F S_ .f32 := constant S_ .f32 0x7F800000#32
  let main_v60 : FVec F S8x128 .f32 := broadcastInDim S8x128 ![] bcast_S_S8x128 main_cst_22
  let main_v61 : IVec S8x128 1 := cmpf .olt main_v59 main_v60
  let main_c_23 : IVec S_ 1 := constantI S_ 1 1#1
  let main_v62 : IVec S_ 1 := (fun x v => Host.reduce IntOp.andi x v reducesTo_S8x128_S_d0_1 h_S_) main_v61 main_c_23
  let main_v63 : IVec S_ 1 := andi main_v58 main_v62
  main_v63

def fn_part2 {F : FTy → Type} [FloatOps F] (main_arg7 : FVec F S1024x1024 .f32) (main_arg8 : FVec F S1024 .f32) (main_arg9 : FVec F S8x128 .f32) (main_arg10 : FVec F S8x128 .f32) (main_arg11 : FVec F S8x128 .f32) (main_arg12 : FVec F S8x128 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S8x128 .f32 := Host.absf main_arg9
  let main_cst_16 : FVec F S_ .f32 := constant S_ .f32 0x7F800000#32
  let main_v45 : FVec F S8x128 .f32 := broadcastInDim S8x128 ![] bcast_S_S8x128 main_cst_16
  let main_v46 : IVec S8x128 1 := cmpf .olt main_v44 main_v45
  let main_c_17 : IVec S_ 1 := constantI S_ 1 1#1
  let main_v47 : IVec S_ 1 := (fun x v => Host.reduce IntOp.andi x v reducesTo_S8x128_S_d0_1 h_S_) main_v46 main_c_17
  let main_v48 : IVec S_ 1 := andi main_v43 main_v47
  let main_v49 : FVec F S8x128 .f32 := Host.absf main_arg10
  let main_cst_18 : FVec F S_ .f32 := constant S_ .f32 0x7F800000#32
  let main_v50 : FVec F S8x128 .f32 := broadcastInDim S8x128 ![] bcast_S_S8x128 main_cst_18
  fn_part3 (F := F) main_arg11 main_arg12 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S8x128 .f32) (main_arg10 : FVec F S8x128 .f32) (main_arg11 : FVec F S8x128 .f32) (main_arg12 : FVec F S8x128 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4x8192x1024 .f32) (main_arg1 : FVec F S4x8192x1024 .f32) (main_arg2 : FVec F S4x8192x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S8x128 .f32) (main_arg10 : FVec F S8x128 .f32) (main_arg11 : FVec F S8x128 .f32) (main_arg12 : FVec F S8x128 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S4x8192x1024 .f32 := Host.absf main_arg1
  let main_cst_0 : FVec F S_ .f32 := constant S_ .f32 0x7F800000#32
  let main_v5 : FVec F S4x8192x1024 .f32 := broadcastInDim S4x8192x1024 ![] bcast_S_S4x8192x1024 main_cst_0
  let main_v6 : IVec S4x8192x1024 1 := cmpf .olt main_v4 main_v5
  let main_c_1 : IVec S_ 1 := constantI S_ 1 1#1
  let main_v7 : IVec S_ 1 := (fun x v => Host.reduce IntOp.andi x v reducesTo_S4x8192x1024_S_d0_1_2 h_S_) main_v6 main_c_1
  let main_v8 : IVec S_ 1 := andi main_v3 main_v7
  let main_v9 : FVec F S4x8192x1024 .f32 := Host.absf main_arg2
  let main_cst_2 : FVec F S_ .f32 := constant S_ .f32 0x7F800000#32
  let main_v10 : FVec F S4x8192x1024 .f32 := broadcastInDim S4x8192x1024 ![] bcast_S_S4x8192x1024 main_cst_2
  let main_v11 : IVec S4x8192x1024 1 := cmpf .olt main_v9 main_v10
  let main_c_3 : IVec S_ 1 := constantI S_ 1 1#1
  let main_v12 : IVec S_ 1 := (fun x v => Host.reduce IntOp.andi x v reducesTo_S4x8192x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_v13 main_v16
-- ==== Kernel.lean ====
abbrev S4x8192x1024 : Shape := ⟨3, ![4, 8192, 1024]⟩
abbrev S1024x1024 : Shape := ⟨2, ![1024, 1024]⟩
abbrev S1024 : Shape := ⟨1, ![1024]⟩
abbrev S8x128 : Shape := ⟨2, ![8, 128]⟩
abbrev S1x1024 : Shape := ⟨2, ![1, 1024]⟩
abbrev S32768x1024 : Shape := ⟨2, ![32768, 1024]⟩
abbrev S2048x1024 : Shape := ⟨2, ![2048, 1024]⟩
abbrev S1024x128 : Shape := ⟨2, ![1024, 128]⟩
abbrev S1x128 : Shape := ⟨2, ![1, 128]⟩
abbrev S2048x128 : Shape := ⟨2, ![2048, 128]⟩
abbrev S128 : Shape := ⟨1, ![128]⟩
abbrev S2048 : Shape := ⟨1, ![2048]⟩
abbrev S2048x1 : Shape := ⟨2, ![2048, 1]⟩
abbrev S4x8x128x128 : Shape := ⟨4, ![4, 8, 128, 128]⟩
abbrev S1x8192x128 : Shape := ⟨3, ![1, 8192, 128]⟩
abbrev S1x1x128x128 : Shape := ⟨4, ![1, 1, 128, 128]⟩
abbrev S8192x128 : Shape := ⟨2, ![8192, 128]⟩
abbrev S128x128 : Shape := ⟨2, ![128, 128]⟩

abbrev nBuf : Space → Nat
  | .hbm => 30
  | .vmem => 38
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8x128, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S32768x1024, .f32⟩
  | .hbm, ⟨20, _⟩ => ⟨S32768x1024, .bf16⟩
  | .hbm, ⟨21, _⟩ => ⟨S32768x1024, .f32⟩
  | .hbm, ⟨22, _⟩ => ⟨S32768x1024, .bf16⟩
  | .hbm, ⟨23, _⟩ => ⟨S32768x1024, .f32⟩
  | .hbm, ⟨24, _⟩ => ⟨S32768x1024, .bf16⟩
  | .hbm, ⟨25, _⟩ => ⟨S4x8192x1024, .bf16⟩
  | .hbm, ⟨26, _⟩ => ⟨S4x8192x1024, .bf16⟩
  | .hbm, ⟨27, _⟩ => ⟨S4x8192x1024, .bf16⟩
  | .hbm, ⟨28, _⟩ => ⟨S4x8192x1024, .f32⟩
  | .hbm, ⟨29, _⟩ => ⟨S4x8x128x128, .f32⟩
  | .local _ .vmem, ⟨0, _⟩ => ⟨S2048x1024, .f32⟩
  | .local _ .vmem, ⟨1, _⟩ => ⟨S2048x1024, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1x128, .f32⟩
  | .local _ .vmem, ⟨6, _⟩ => ⟨S2048x128, .bf16⟩
  | .local _ .vmem, ⟨7, _⟩ => ⟨S2048x128, .bf16⟩
  | .local _ .vmem, ⟨8, _⟩ => ⟨S2048x1024, .f32⟩
  | .local _ .vmem, ⟨9, _⟩ => ⟨S2048x1024, .f32⟩
  | .local _ .vmem, ⟨10, _⟩ => ⟨S1024x128, .f32⟩
  | .local _ .vmem, ⟨11, _⟩ => ⟨S1024x128, .f32⟩
  | .local _ .vmem, ⟨12, _⟩ => ⟨S1x128, .f32⟩
  | .local _ .vmem, ⟨13, _⟩ => ⟨S1x128, .f32⟩
  | .local _ .vmem, ⟨14, _⟩ => ⟨S8x128, .f32⟩
  | .local _ .vmem, ⟨15, _⟩ => ⟨S8x128, .f32⟩
  | .local _ .vmem, ⟨16, _⟩ => ⟨S2048x128, .bf16⟩
  | .local _ .vmem, ⟨17, _⟩ => ⟨S2048x128, .bf16⟩
  | .local _ .vmem, ⟨18, _⟩ => ⟨S2048x1024, .f32⟩
  | .local _ .vmem, ⟨19, _⟩ => ⟨S2048x1024, .f32⟩
  | .local _ .vmem, ⟨20, _⟩ => ⟨S1024x128, .f32⟩
  | .local _ .vmem, ⟨21, _⟩ => ⟨S1024x128, .f32⟩
  | .local _ .vmem, ⟨22, _⟩ => ⟨S1x128, .f32⟩
  | .local _ .vmem, ⟨23, _⟩ => ⟨S1x128, .f32⟩
  | .local _ .vmem, ⟨24, _⟩ => ⟨S8x128, .f32⟩
  | .local _ .vmem, ⟨25, _⟩ => ⟨S8x128, .f32⟩
  | .local _ .vmem, ⟨26, _⟩ => ⟨S2048x128, .bf16⟩
  | .local _ .vmem, ⟨27, _⟩ => ⟨S2048x128, .bf16⟩
  | .local _ .vmem, ⟨28, _⟩ => ⟨S1x8192x128, .bf16⟩
  | .local _ .vmem, ⟨29, _⟩ => ⟨S1x8192x128, .bf16⟩
  | .local _ .vmem, ⟨30, _⟩ => ⟨S1x8192x128, .bf16⟩
  | .local _ .vmem, ⟨31, _⟩ => ⟨S1x8192x128, .bf16⟩
  | .local _ .vmem, ⟨32, _⟩ => ⟨S1x8192x128, .bf16⟩
  | .local _ .vmem, ⟨33, _⟩ => ⟨S1x8192x128, .bf16⟩
  | .local _ .vmem, ⟨34, _⟩ => ⟨S1x8192x128, .f32⟩
  | .local _ .vmem, ⟨35, _⟩ => ⟨S1x8192x128, .f32⟩
  | .local _ .vmem, ⟨36, _⟩ => ⟨S1x1x128x128, .f32⟩
  | .local _ .vmem, ⟨37, _⟩ => ⟨S1x1x128x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 8], ![false, false]⟩

def k1_off1 (i : grid1.Coords) : Fin 2 → Nat :=
  let arg1 : BitVec 32 := BitVec.ofNat 32 (i 1).val
  let v11 : Index := Scalar.indexCast arg1
  let c0_5 : Index := 0#32
  ![v11.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![16, 8], ![false, false]⟩

def k2_off1 (i : grid2.Coords) : Fin 2 → Nat :=
  let arg1 : BitVec 32 := BitVec.ofNat 32 (i 1).val
  let v11 : Index := Scalar.indexCast arg1
  let c0_5 : Index := 0#32
  ![v11.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S8x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S2048x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![4, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_4 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x8192x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x8192x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x8192x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x8192x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x1x128x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

class Facts₀ : Prop where
  transposes_S1024x1024_S1024x1024_1_0 : S1024x1024.Transposes [1, 0] S1024x1024
  shapeCasts_S1024_S1x1024 : S1024.ShapeCasts S1x1024
  shapeCasts_S4x8192x1024_S32768x1024 : S4x8192x1024.ShapeCasts S32768x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  shapeCasts_S1x128_S128 : S1x128.ShapeCasts S128
  reduces_S2048x128_S2048 : S2048x128.Reduces [1] S2048
  shapeCasts_S2048_S2048x1 : S2048.ShapeCasts S2048x1
  broadcasts_S2048x1_S2048x128 : S2048x1.Broadcasts S2048x128
  shapeCasts_S128_S1x128 : S128.ShapeCasts S1x128
  shapeCasts_S32768x1024_S4x8192x1024 : S32768x1024.ShapeCasts S4x8192x1024
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S1x1x128x128_S1x1x128x128_0_0_0_0 : ∀ a, (![0, 0, 0, 0] : Fin 4 → Nat) a + S1x1x128x128.size a ≤ S1x1x128x128.size a
  h_S1x1x128x128 : 0 < S1x1x128x128.numel
  shapeCasts_S1x1x128x128_S128x128 : S1x1x128x128.ShapeCasts S128x128
  shapeCasts_S128x128_S1x1x128x128 : S128x128.ShapeCasts S1x1x128x128
  shapeCasts_S8192x128_S1x8192x128 : S8192x128.ShapeCasts S1x8192x128
  dot_S2048x1024_S1024x128_S2048x128_1_0_0_1_n_n_wf : DotDims.WF S2048x1024 S1024x128 S2048x128 [1] [0] [0] [1] [] []
  dot_S8192x128_S8192x128_S128x128_0_0_1_1_n_n_wf : DotDims.WF S8192x128 S8192x128 S128x128 [0] [0] [1] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x1024.size a
  hwx0_1 : ∀ i : grid0.Coords, EltTy.bits .f32 = 32 ∨ (Rect.block (s := S1024x1024) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .f32 = 32 ∨ (Rect.block (s := S1x1024) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S32768x1024.size a
  hwx0_3 : ∀ i : grid0.Coords, EltTy.bits .bf16 = 32 ∨ (Rect.block (s := S32768x1024) S2048x128.size (cc0_transform_3 i) (hinb0_3 i)).WholeWords (EltTy.packing .bf16)
  hrank1 : 0 < grid1.rank
  k1_off1_inb : ∀ i : grid1.Coords, ∀ a, (k1_off1 i) a + S1x128.size a ≤ S8x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S32768x1024.size a
  hwx1_0 : ∀ i : grid1.Coords, EltTy.bits .f32 = 32 ∨ (Rect.block (s := S32768x1024) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x1024.size a
  hwx1_1 : ∀ i : grid1.Coords, EltTy.bits .f32 = 32 ∨ (Rect.block (s := S1024x1024) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x1024.size a
  hwx1_2 : ∀ i : grid1.Coords, EltTy.bits .f32 = 32 ∨ (Rect.block (s := S1x1024) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S8x128.size a
  hwx1_3 : ∀ i : grid1.Coords, EltTy.bits .f32 = 32 ∨ (Rect.block (s := S8x128) S8x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S8x128.size a
  hwx1_4 : ∀ i : grid1.Coords, EltTy.bits .f32 = 32 ∨ (Rect.block (s := S8x128) S8x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S32768x1024.size a
  hwx1_5 : ∀ i : grid1.Coords, EltTy.bits .bf16 = 32 ∨ (Rect.block (s := S32768x1024) S2048x128.size (cc1_transform_5 i) (hinb1_5 i)).WholeWords (EltTy.packing .bf16)
  hrank2 : 0 < grid2.rank
  k2_off1_inb : ∀ i : grid2.Coords, ∀ a, (k2_off1 i) a + S1x128.size a ≤ S8x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S32768x1024.size a
  hwx2_0 : ∀ i : grid2.Coords, EltTy.bits .f32 = 32 ∨ (Rect.block (s := S32768x1024) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S1024x1024.size a
  hwx2_1 : ∀ i : grid2.Coords, EltTy.bits .f32 = 32 ∨ (Rect.block (s := S1024x1024) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x1024.size a
  hwx2_2 : ∀ i : grid2.Coords, EltTy.bits .f32 = 32 ∨ (Rect.block (s := S1x1024) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8x128.size a ≤ S8x128.size a
  hwx2_3 : ∀ i : grid2.Coords, EltTy.bits .f32 = 32 ∨ (Rect.block (s := S8x128) S8x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S8x128.size a ≤ S8x128.size a
  hwx2_4 : ∀ i : grid2.Coords, EltTy.bits .f32 = 32 ∨ (Rect.block (s := S8x128) S8x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x128.size a ≤ S32768x1024.size a
  hwx2_5 : ∀ i : grid2.Coords, EltTy.bits .bf16 = 32 ∨ (Rect.block (s := S32768x1024) S2048x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x8192x128.size a ≤ S4x8192x1024.size a
  hwx3_0 : ∀ i : grid3.Coords, EltTy.bits .bf16 = 32 ∨ (Rect.block (s := S4x8192x1024) S1x8192x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x8192x128.size a ≤ S4x8192x1024.size a
  hwx3_1 : ∀ i : grid3.Coords, EltTy.bits .bf16 = 32 ∨ (Rect.block (s := S4x8192x1024) S1x8192x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x8192x128.size a ≤ S4x8192x1024.size a
  hwx3_2 : ∀ i : grid3.Coords, EltTy.bits .bf16 = 32 ∨ (Rect.block (s := S4x8192x1024) S1x8192x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x8192x128.size a ≤ S4x8192x1024.size a
  hwx3_3 : ∀ i : grid3.Coords, EltTy.bits .f32 = 32 ∨ (Rect.block (s := S4x8192x1024) S1x8192x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x128x128.size a ≤ S4x8x128x128.size a
  hwx3_4 : ∀ i : grid3.Coords, EltTy.bits .f32 = 32 ∨ (Rect.block (s := S4x8x128x128) S1x1x128x128.size (cc3_transform_4 i) (hinb3_4 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S8192x128_S8192x128_S128x128_0_0_1_1_n_n : DotDims S8192x128 S8192x128 S128x128 where
  lhsContracting := [0]
  rhsContracting := [0]
  lhsNonContracting := [1]
  rhsNonContracting := [1]
  lhsBatch := []
  rhsBatch := []
  wf := dot_S8192x128_S8192x128_S128x128_0_0_1_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v6) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S8x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S8x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S2048x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v10) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S8x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S8x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S2048x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v12) S1x8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S1x8192x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x8192x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15_0) S1x8192x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v15_1) S1x1x128x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S4x8192x1024 : Shape := ⟨3, ![4, 8192, 1024]⟩
abbrev S1024x1024 : Shape := ⟨2, ![1024, 1024]⟩
abbrev S1024 : Shape := ⟨1, ![1024]⟩
abbrev S8x128 : Shape := ⟨2, ![8, 128]⟩
abbrev S1x1x1024 : Shape := ⟨3, ![1, 1, 1024]⟩
abbrev S4x8192x8x128 : Shape := ⟨4, ![4, 8192, 8, 128]⟩
abbrev S4x8x8192x128 : Shape := ⟨4, ![4, 8, 8192, 128]⟩
abbrev S_ : Shape := ⟨0, ![]⟩
abbrev S4x8x8192 : Shape := ⟨3, ![4, 8, 8192]⟩
abbrev S4x8x8192x1 : Shape := ⟨4, ![4, 8, 8192, 1]⟩
abbrev S1x8x1x128 : Shape := ⟨4, ![1, 8, 1, 128]⟩
abbrev S4x8x128x128 : Shape := ⟨4, ![4, 8, 128, 128]⟩

abbrev nBuf : Space → Nat
  | .hbm => 96
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8x128, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S4x8192x1024, .f32⟩
  | .hbm, ⟨14, _⟩ => ⟨S1x1x1024, .f32⟩
  | .hbm, ⟨15, _⟩ => ⟨S4x8192x1024, .f32⟩
  | .hbm, ⟨16, _⟩ => ⟨S4x8192x1024, .f32⟩
  | .hbm, ⟨17, _⟩ => ⟨S4x8192x8x128, .f32⟩
  | .hbm, ⟨18, _⟩ => ⟨S4x8x8192x128, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S4x8192x8x128, .f32⟩
  | .hbm, ⟨24, _⟩ => ⟨S4x8x8192x128, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S4x8192x8x128, .f32⟩
  | .hbm, ⟨30, _⟩ => ⟨S4x8x8192x128, .f32⟩
  | .hbm, ⟨31, _⟩ => ⟨S_, .f32⟩
  | .hbm, ⟨32, _⟩ => ⟨S4x8x8192, .f32⟩
  | .hbm, ⟨33, _⟩ => ⟨S4x8x8192x1, .f32⟩
  | .hbm, ⟨34, _⟩ => ⟨S_, .f32⟩
  | .hbm, ⟨35, _⟩ => ⟨S4x8x8192x1, .f32⟩
  | .hbm, ⟨36, _⟩ => ⟨S4x8x8192x1, .f32⟩
  | .hbm, ⟨37, _⟩ => ⟨S4x8x8192x128, .f32⟩
  | .hbm, ⟨38, _⟩ => ⟨S4x8x8192x128, .f32⟩
  | .hbm, ⟨39, _⟩ => ⟨S4x8x8192x128, .f32⟩
  | .hbm, ⟨40, _⟩ => ⟨S_, .f32⟩
  | .hbm, ⟨41, _⟩ => ⟨S4x8x8192, .f32⟩
  | .hbm, ⟨42, _⟩ => ⟨S4x8x8192x1, .f32⟩
  | .hbm, ⟨43, _⟩ => ⟨S_, .f32⟩
  | .hbm, ⟨44, _⟩ => ⟨S4x8x8192x1, .f32⟩
  | .hbm, ⟨45, _⟩ => ⟨S4x8x8192x1, .f32⟩
  | .hbm, ⟨46, _⟩ => ⟨S4x8x8192x128, .f32⟩
  | .hbm, ⟨47, _⟩ => ⟨S4x8x8192x128, .f32⟩
  | .hbm, ⟨48, _⟩ => ⟨S_, .f32⟩
  | .hbm, ⟨49, _⟩ => ⟨S4x8x8192x1, .f32⟩
  | .hbm, ⟨50, _⟩ => ⟨S4x8x8192x1, .f32⟩
  | .hbm, ⟨51, _⟩ => ⟨S4x8x8192x1, .f32⟩
  | .hbm, ⟨52, _⟩ => ⟨S4x8x8192x128, .f32⟩
  | .hbm, ⟨53, _⟩ => ⟨S4x8x8192x128, .f32⟩
  | .hbm, ⟨54, _⟩ => ⟨S1x8x1x128, .f32⟩
  | .hbm, ⟨55, _⟩ => ⟨S4x8x8192x128, .f32⟩
  | .hbm, ⟨56, _⟩ => ⟨S4x8x8192x128, .f32⟩
  | .hbm, ⟨57, _⟩ => ⟨S1x8x1x128, .f32⟩
  | .hbm, ⟨58, _⟩ => ⟨S4x8x8192x128, .f32⟩
  | .hbm, ⟨59, _⟩ => ⟨S4x8x8192x128, .f32⟩
  | .hbm, ⟨60, _⟩ => ⟨S_, .f32⟩
  | .hbm, ⟨61, _⟩ => ⟨S4x8x8192, .f32⟩
  | .hbm, ⟨62, _⟩ => ⟨S4x8x8192x1, .f32⟩
  | .hbm, ⟨63, _⟩ => ⟨S_, .f32⟩
  | .hbm, ⟨64, _⟩ => ⟨S4x8x8192x1, .f32⟩
  | .hbm, ⟨65, _⟩ => ⟨S4x8x8192x1, .f32⟩
  | .hbm, ⟨66, _⟩ => ⟨S4x8x8192x128, .f32⟩
  | .hbm, ⟨67, _⟩ => ⟨S4x8x8192x128, .f32⟩
  | .hbm, ⟨68, _⟩ => ⟨S4x8x8192x128, .f32⟩
  | .hbm, ⟨69, _⟩ => ⟨S_, .f32⟩
  | .hbm, ⟨70, _⟩ => ⟨S4x8x8192, .f32⟩
  | .hbm, ⟨71, _⟩ => ⟨S4x8x8192x1, .f32⟩
  | .hbm, ⟨72, _⟩ => ⟨S_, .f32⟩
  | .hbm, ⟨73, _⟩ => ⟨S4x8x8192x1, .f32⟩
  | .hbm, ⟨74, _⟩ => ⟨S4x8x8192x1, .f32⟩
  | .hbm, ⟨75, _⟩ => ⟨S4x8x8192x128, .f32⟩
  | .hbm, ⟨76, _⟩ => ⟨S4x8x8192x128, .f32⟩
  | .hbm, ⟨77, _⟩ => ⟨S_, .f32⟩
  | .hbm, ⟨78, _⟩ => ⟨S4x8x8192x1, .f32⟩
  | .hbm, ⟨79, _⟩ => ⟨S4x8x8192x1, .f32⟩
  | .hbm, ⟨80, _⟩ => ⟨S4x8x8192x1, .f32⟩
  | .hbm, ⟨81, _⟩ => ⟨S4x8x8192x128, .f32⟩
  | .hbm, ⟨82, _⟩ => ⟨S4x8x8192x128, .f32⟩
  | .hbm, ⟨83, _⟩ => ⟨S1x8x1x128, .f32⟩
  | .hbm, ⟨84, _⟩ => ⟨S4x8x8192x128, .f32⟩
  | .hbm, ⟨85, _⟩ => ⟨S4x8x8192x128, .f32⟩
  | .hbm, ⟨86, _⟩ => ⟨S1x8x1x128, .f32⟩
  | .hbm, ⟨87, _⟩ => ⟨S4x8x8192x128, .f32⟩
  | .hbm, ⟨88, _⟩ => ⟨S4x8x8192x128, .f32⟩
  | .hbm, ⟨89, _⟩ => ⟨S4x8x128x128, .f32⟩
  | .hbm, ⟨90, _⟩ => ⟨S_, .f32⟩
  | .hbm, ⟨91, _⟩ => ⟨S4x8x128x128, .f32⟩
  | .hbm, ⟨92, _⟩ => ⟨S4x8x128x128, .f32⟩
  | .hbm, ⟨93, _⟩ => ⟨S4x8x8192x128, .f32⟩
  | .hbm, ⟨94, _⟩ => ⟨S4x8192x8x128, .f32⟩
  | .hbm, ⟨95, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_9 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  shapeCasts_S4x8192x1024_S4x8192x8x128 : S4x8192x1024.ShapeCasts S4x8192x8x128
  transposes_S4x8192x8x128_S4x8x8192x128_0_2_1_3 : S4x8192x8x128.Transposes [0, 2, 1, 3] S4x8x8192x128
  reducesTo_S4x8x8192x128_S4x8x8192_d3 : S4x8x8192x128.ReducesTo [3] S4x8x8192
  h_S_ : 0 < S_.numel
  bcast_S4x8x8192_S4x8x8192x1_0_1_2 : S4x8x8192.BroadcastsInDim S4x8x8192x1 (![0, 1, 2] : Fin 3 → Fin S4x8x8192x1.rank)
  bcast_S_S4x8x8192x1 : S_.BroadcastsInDim S4x8x8192x1 (![] : Fin 0 → Fin S4x8x8192x1.rank)
  bcast_S4x8x8192x1_S4x8x8192x128_0_1_2_3 : S4x8x8192x1.BroadcastsInDim S4x8x8192x128 (![0, 1, 2, 3] : Fin 4 → Fin S4x8x8192x128.rank)
  bcast_S8x128_S1x8x1x128_1_3 : S8x128.BroadcastsInDim S1x8x1x128 (![1, 3] : Fin 2 → Fin S1x8x1x128.rank)
  bcast_S1x8x1x128_S4x8x8192x128_0_1_2_3 : S1x8x1x128.BroadcastsInDim S4x8x8192x128 (![0, 1, 2, 3] : Fin 4 → Fin S4x8x8192x128.rank)
  bcast_S_S4x8x128x128 : S_.BroadcastsInDim S4x8x128x128 (![] : Fin 0 → Fin S4x8x128x128.rank)
  transposes_S4x8x8192x128_S4x8192x8x128_0_2_1_3 : S4x8x8192x128.Transposes [0, 2, 1, 3] S4x8192x8x128
  shapeCasts_S4x8192x8x128_S4x8192x1024 : S4x8192x8x128.ShapeCasts S4x8192x1024
  dot_S4x8192x1024_S1024x1024_S4x8192x1024_2_1_01_0_n_n_wf : DotDims.WF S4x8192x1024 S1024x1024 S4x8192x1024 [2] [1] [0, 1] [0] [] []
  dot_S4x8x8192x128_S4x8x8192x128_S4x8x128x128_2_2_3_3_01_01_wf : DotDims.WF S4x8x8192x128 S4x8x8192x128 S4x8x128x128 [2] [2] [3] [3] [0, 1] [0, 1]
  dot_S4x8x8192x128_S4x8x128x128_S4x8x8192x128_3_2_2_3_01_01_wf : DotDims.WF S4x8x8192x128 S4x8x128x128 S4x8x8192x128 [3] [2] [2] [3] [0, 1] [0, 1]

variable [Facts₀]

def dot_S4x8192x1024_S1024x1024_S4x8192x1024_2_1_01_0_n_n : DotDims S4x8192x1024 S1024x1024 S4x8192x1024 where
  lhsContracting := [2]
  rhsContracting := [1]
  lhsNonContracting := [0, 1]
  rhsNonContracting := [0]
  lhsBatch := []
  rhsBatch := []
  wf := dot_S4x8192x1024_S1024x1024_S4x8192x1024_2_1_01_0_n_n_wf
def dot_S4x8x8192x128_S4x8x8192x128_S4x8x128x128_2_2_3_3_01_01 : DotDims S4x8x8192x128 S4x8x8192x128 S4x8x128x128 where
  lhsContracting := [2]
  rhsContracting := [2]
  lhsNonContracting := [3]
  rhsNonContracting := [3]
  lhsBatch := [0, 1]
  rhsBatch := [0, 1]
  wf := dot_S4x8x8192x128_S4x8x8192x128_S4x8x128x128_2_2_3_3_01_01_wf
def dot_S4x8x8192x128_S4x8x128x128_S4x8x8192x128_3_2_2_3_01_01 : DotDims S4x8x8192x128 S4x8x128x128 S4x8x8192x128 where
  lhsContracting := [3]
  rhsContracting := [2]
  lhsNonContracting := [2]
  rhsNonContracting := [3]
  lhsBatch := [0, 1]
  rhsBatch := [0, 1]
  wf := dot_S4x8x8192x128_S4x8x128x128_S4x8x8192x128_3_2_2_3_01_01_wf

class Facts : Prop extends Facts₀ where

variable [Facts]
-- ==== Proof.Spec.lean ====
/-
  The mathematics both programs compute, over the extended reals, written once as plain functions of the thirteen
  argument arrays read at coordinates.  A linear layer `x ↦ x·Wᵀ + b` on a row of 1024 features; the features seen as
  8 heads of 128 lanes (feature `h·128 + l` is lane `l` of head `h`); a layer normalisation of one head's 128 lanes
  (mean and variance as sums divided by 128, the reciprocal square root of the variance plus a small constant, an affine
  map by per-head tables); the 128×128 matrix `Kᵀ·V / 8192` of a head, summed over the 8192 rows of a batch; and the
  product of a head's query rows with that matrix.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A batch of activations `[4, 8192, 1024]`. -/
abbrev Act := (⟨3, ![4, 8192, 1024]⟩ : Shape).Idx → EReal
/-- A weight matrix `[1024, 1024]` (output feature, input feature). -/
abbrev Wt := (⟨2, ![1024, 1024]⟩ : Shape).Idx → EReal
/-- A bias `[1024]`. -/
abbrev Bias := (⟨1, ![1024]⟩ : Shape).Idx → EReal
/-- A per-head table `[8, 128]`. -/
abbrev Tab := (⟨2, ![8, 128]⟩ : Shape).Idx → EReal

/-- An array of extended reals read at an index (it fixes the element type, so that sums and products are the extended reals'). -/
abbrev rd {s : Shape} (x : s.Idx → EReal) (i : s.Idx) : EReal := x i

/-- Feature `h·128 + l`: lane `l` of head `h`. -/
def col (h : Fin 8) (l : Fin 128) : Fin 1024 := ⟨h.val * 128 + l.val, by have := h.isLt; have := l.isLt; omega⟩

/-- Row `a·8192 + n` of the flattened `[32768, ·]` view of a `[4, 8192, ·]` array. -/
def row (a : Fin 4) (n : Fin 8192) : Fin 32768 := ⟨a.val * 8192 + n.val, by have := a.isLt; have := n.isLt; omega⟩

/-- Every feature is a lane of a head. -/
theorem exists_col (f : Fin 1024) : ∃ (h : Fin 8) (l : Fin 128), f = col h l :=
  ⟨⟨f.val / 128, by have := f.isLt; omega⟩, ⟨f.val % 128, Nat.mod_lt _ (by decide)⟩, Fin.ext (by show f.val = f.val / 128 * 128 + f.val % 128; omega)⟩

theorem col_val (h : Fin 8) (l : Fin 128) : (col h l).val = h.val * 128 + l.val := rfl
theorem row_val (a : Fin 4) (n : Fin 8192) : (row a n).val = a.val * 8192 + n.val := rfl

/-- The linear layer at one output feature: `∑ₖ x[a,n,k]·W[e,k] + b[e]`. -/
def lin (x : Act) (w : Wt) (b : Bias) (a : Fin 4) (n : Fin 8192) (e : Fin 1024) : EReal :=
  (∑ k : Fin 1024, x (ix3 a n k) * w (ix2 e k)) + b (ix1 e)

/-- The divisor 128, the constant under the root, the divisor 8192 and its reciprocal `2⁻¹³`, as the programs spell them. -/
def c128 : EReal := Ideal.ofBits .f32 0x43000000#32
def epsLn : EReal := Ideal.ofBits .f32 0x3727C5AC#32
def c8192 : EReal := Ideal.ofBits .f32 0x46000000#32
def inv8192 : EReal := Ideal.ofBits .f32 0x39000000#32

/-- The mean of 128 lanes. -/
def mean128 (y : Fin 128 → EReal) : EReal := Ideal.div (∑ j : Fin 128, y j) c128

/-- Layer normalisation of 128 lanes `y` with scale `g` and shift `bt`, at lane `l`:
    `(y l − μ) · rsqrt(σ² + ε) · g l + bt l`, `μ` the mean and `σ²` the mean of the squared deviations. -/
def lnorm (y g bt : Fin 128 → EReal) (l : Fin 128) : EReal :=
  (y l - mean128 y) * Ideal.rsqrt (mean128 (fun j => (y j - mean128 y) * (y j - mean128 y)) + epsLn) * g l + bt l

/-- The query heads: the linear layer, feature `h·128 + l`. -/
def qH (x : Act) (w : Wt) (b : Bias) (a : Fin 4) (n : Fin 8192) (h : Fin 8) (l : Fin 128) : EReal :=
  lin x w b a n (col h l)

/-- The key (and value) heads: the linear layer, then each head's 128 lanes normalised with that head's row of the tables. -/
def nH (x : Act) (w : Wt) (b : Bias) (g bt : Tab) (a : Fin 4) (n : Fin 8192) (h : Fin 8) (l : Fin 128) : EReal :=
  lnorm (fun j => lin x w b a n (col h j)) (fun j => g (ix2 h j)) (fun j => bt (ix2 h j)) l

/-- One head's `Kᵀ·V` over the 8192 rows, divided by 8192. -/
def pAttn (K V : Fin 4 → Fin 8192 → Fin 8 → Fin 128 → EReal) (a : Fin 4) (h : Fin 8) (d e : Fin 128) : EReal :=
  Ideal.div (∑ n : Fin 8192, K a n h d * V a n h e) c8192

/-- A head's query row times that head's matrix. -/
def att (Q : Fin 4 → Fin 8192 → Fin 8 → Fin 128 → EReal) (P : Fin 4 → Fin 8 → Fin 128 → Fin 128 → EReal)
    (a : Fin 4) (n : Fin 8192) (h : Fin 8) (e : Fin 128) : EReal :=
  ∑ d : Fin 128, Q a n h d * P a h d e

/-- Multiplying by `2⁻¹³` is dividing by 8192, on every extended real. -/
theorem c8192_eq : c8192 = ((8192 : ℝ) : EReal) := by
  unfold c8192; simp [Ideal.ofBits, Ideal.ieee, -EReal.coe_mul]; norm_num

theorem inv8192_eq : inv8192 = ((1 / 8192 : ℝ) : EReal) := by
  unfold inv8192; simp [Ideal.ofBits, Ideal.ieee, -EReal.coe_mul]; norm_num

theorem scale_eq (x : EReal) : x * inv8192 = Ideal.div x c8192 := by
  rw [c8192_eq, inv8192_eq, Ideal.div_coe (by norm_num : (8192 : ℝ) ≠ 0)]

end Cert.Spec

end
-- ==== Proof.Region0.lean ====
import proofs.«123169_j44882408243764_1_alg».proof.Proof.Gen.KernelIdeal.Frame
import proofs.«123169_j44882408243764_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Spec

/-! ## The body's product at an index -/

/-- The offsets of every whole-buffer access are zero. -/
theorem zero_off : (![0, 0] : Fin 2 → Nat) = fun _ => 0 := funext fun a => by fin_cases a <;> rfl

/-- The left operand of the product is read at the output's row … -/
theorem lhs_row (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
/-- … and the summation index; -/
theorem lhs_sum (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
/-- the right operand at the summation index … -/
theorem rhs_sum (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
/-- … and the output's column. -/
theorem rhs_col (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The product of a `[2048, 1024]` block with a `[1024, 128]` block into a zero accumulator, at row `p` and column `q`:
    the sum over the 1024 shared coordinates. -/
theorem prod_apply (a : FVec Ideal S2048x1024 .bf16) (b : FVec Ideal S1024x128 .bf16) (p : Fin 2048) (q : Fin 128) :
    matmul dot_S2048x1024_S1024x128_S2048x128_1_0_0_1_n_n none a b (constant (F := Ideal) S2048x128 .f32 0x00000000#32) (ix2 p q)
      = ∑ k : Fin 1024, a (ix2 p k) * b (ix2 k q) := by
  refine (Ideal.matmul_constant_zero_apply dot_S2048x1024_S1024x128_S2048x128_1_0_0_1_n_n none a b (ix2 p q)).trans ?_
  rw [← Equiv.sum_comp (ValueIdx.contrEquiv1 dot_S2048x1024_S1024x128_S2048x128_1_0_0_1_n_n 1024 rfl rfl).symm]
  refine Finset.sum_congr rfl fun k _ => ?_
  have hk := ValueIdx.contrEquiv1_symm_val dot_S2048x1024_S1024x128_S2048x128_1_0_0_1_n_n 1024 rfl rfl k
  have el : dot_S2048x1024_S1024x128_S2048x128_1_0_0_1_n_n.lhsIdx (ix2 p q) ((ValueIdx.contrEquiv1 dot_S2048x1024_S1024x128_S2048x128_1_0_0_1_n_n 1024 rfl rfl).symm k) = ix2 p k := funext fun a => Fin.ext (by
    match a with
    | ⟨0, _⟩ => exact lhs_row _ _
    | ⟨1, _⟩ => exact (lhs_sum _ _).trans hk)
  have er : dot_S2048x1024_S1024x128_S2048x128_1_0_0_1_n_n.rhsIdx (ix2 p q) ((ValueIdx.contrEquiv1 dot_S2048x1024_S1024x128_S2048x128_1_0_0_1_n_n 1024 rfl rfl).symm k) = ix2 k q := funext fun a => Fin.ext (by
    match a with
    | ⟨0, _⟩ => exact (rhs_sum _ _).trans hk
    | ⟨1, _⟩ => exact rhs_col _ _)
  rw [el, er]

/-- A `[1, 128]` row spread over 2048 rows, read at row `p` and column `q`, is the row's entry `q`. -/
theorem spread_apply (x : FVec Ideal S1x128 .f32) (h : S1x128.Broadcasts S2048x128) (p : Fin 2048) (q : Fin 128) :
    broadcastTo S2048x128 x h (ix2 p q) = x (ix2 (0 : Fin 1) q) :=
  broadcastTo_apply x h (ix2 p q) (ix2 (0 : Fin 1) q) (fun a => by
    match a with
    | ⟨0, _⟩ => rfl
    | ⟨1, _⟩ => rfl)

/-- The body's result at row `p` and column `q` of its block: the row of the first block against the column of the
    second, plus the third's entry `q` (the roundings are the identity on the extended reals). -/
theorem body_apply (x0 : Vec Ideal S2048x1024 .f32) (x1 : Vec Ideal S1024x128 .f32) (x2 : Vec Ideal S1x128 .f32) (p : Fin 2048) (q : Fin 128) :
    (k0_pay1 x0 x1 x2 : FVec Ideal S2048x128 .bf16) (ix2 p q)
      = (∑ k : Fin 1024, rd x0 (ix2 p k) * rd x1 (ix2 k q)) + rd x2 (ix2 (0 : Fin 1) q) := by
  unfold k0_pay1
  refine (truncf_apply (φ := .f32) (ψ := .bf16) (s := S2048x128) _ bitsLt_bf16_f32 (ix2 p q)).trans ?_
  refine (addf_apply (φ := .f32) (s := S2048x128) _ _ (ix2 p q)).trans ?_
  refine congrArg₂ (· + ·) ?_ ?_
  · refine (prod_apply _ _ p q).trans ?_
    refine Finset.sum_congr rfl fun k _ => ?_
    refine congrArg₂ (· * ·) ?_ ?_
    · refine (truncf_apply (φ := .f32) (ψ := .bf16) (s := S2048x1024) _ bitsLt_bf16_f32 (ix2 p k)).trans ?_
      exact congrFun (shapeCast_self x0 _) _
    · refine (truncf_apply (φ := .f32) (ψ := .bf16) (s := S1024x128) _ bitsLt_bf16_f32 (ix2 k q)).trans ?_
      exact congrFun (shapeCast_self x1 _) _
  · refine (spread_apply _ _ p q).trans ?_
    exact congrFun (shapeCast_self x2 _) _

-- the TensorCore's buffer contents when the region is entered, at the extended reals
variable (V : (c : Dev nD) → (b : Ref sig .tc) → Buf (Elt Ideal) ((c : Thread nD τ).loc b))

/-! ## From the blocks to the array -/

/-- The whole result array as one function of the three operands: at row `i 0` and feature `i 1`, the row of the first
    against the column of the second, plus the third's entry. -/
def G (a : S32768x1024.Idx → EReal) (w : S1024x1024.Idx → EReal) (b : S1x1024.Idx → EReal) : S32768x1024.Idx → EReal :=
  fun i => (∑ k : Fin 1024, a (ix2 (n0 := 32768) (i 0) k) * w (ix2 (n1 := 1024) k (i 1))) + b (ix2 (n1 := 1024) (0 : Fin 1) (i 1))

/-- The index maps over the 128 grid points: point `t` is row block `t / 8` and column block `t % 8` of the result; the first
    operand's block is that row block (all its columns), the second's and the third's that column block. -/
theorem idx_facts : ∀ t : Fin cfg0.N, win0_3.index t (0 : Fin 2) = t.val / 8 ∧ win0_3.index t (1 : Fin 2) = t.val % 8
    ∧ win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = 0 ∧ win0_2.index t (1 : Fin 2) = t.val % 8 :=
  (by decide +kernel : ∀ t : Fin grid0.N, _)

/-- The first operand's block at point `t`, read at a coordinate. -/
theorem blk_x_apply (c : Dev nD) (t : Fin cfg0.N) (y : S2048x1024.Idx) :
    (iblk0 V c 0 t : Vec Ideal S2048x1024 .f32) y = (V c main_v6 : S32768x1024.Idx → EReal) (((cfg0.win 0).blk t).view.emb y) := by
  unfold iblk0
  rw [View.read_apply]
  rfl
/-- The second operand's block at point `t`, read at a coordinate. -/
theorem blk_w_apply (c : Dev nD) (t : Fin cfg0.N) (y : S1024x128.Idx) :
    (iblk0 V c 1 t : Vec Ideal S1024x128 .f32) y = (V c main_v0 : S1024x1024.Idx → EReal) (((cfg0.win 1).blk t).view.emb y) := by
  unfold iblk0
  rw [View.read_apply]
  rfl
/-- The third operand's block at point `t`, read at a coordinate. -/
theorem blk_b_apply (c : Dev nD) (t : Fin cfg0.N) (y : S1x128.Idx) :
    (iblk0 V c 2 t : Vec Ideal S1x128 .f32) y = (V c main_v3 : S1x1024.Idx → EReal) (((cfg0.win 2).blk t).view.emb y) := by
  unfold iblk0
  rw [View.read_apply]
  rfl

/-- WHAT POINT `t` WRITES BACK is block `t` of `G` of the operands as the region finds them. -/
theorem flushed_eq (c : Dev nD) (t : Fin cfg0.N) :
    (dat0 (F := Ideal) V c).flushed 3 t = ((cfg0.win 3).blk t).view.read (Elt Ideal) (G (V c main_v6) (V c main_v0) (V c main_v3)) := by
  show (cfg0.win 3).cut (grid0.coords t) ((dat0 (F := Ideal) V c).after 3 t) = _
  rw [after0_3]
  unfold out0_3
  rw [View.canon_unit_zero zero_off]
  simp only [View.ld_unit_zero (S := S2048x1024) zero_off, View.ld_unit_zero (S := S1024x128) zero_off, View.ld_unit_zero (S := S1x128) zero_off]
  obtain ⟨e30, e31, e00, e01, e10, e11, e20, e21⟩ := idx_facts t
  funext j
  obtain ⟨p, q, rfl⟩ : ∃ (p : Fin 2048) (q : Fin 128), j = ix2 p q := ⟨j 0, j 1, eq_ix2 j⟩
  show (k0_pay1 (iblk0 V c 0 t) (iblk0 V c 1 t) (iblk0 V c 2 t) : FVec Ideal S2048x128 .bf16) (ix2 p q)
    = G (V c main_v6) (V c main_v0) (V c main_v3) (((cfg0.win 3).blk t).view.emb (ix2 p q))
  refine (body_apply (iblk0 V c 0 t) (iblk0 V c 1 t) (iblk0 V c 2 t) p q).trans ?_
  unfold G
  refine congrArg₂ (· + ·) (Finset.sum_congr rfl fun k _ => congrArg₂ (· * ·) ?_ ?_) ?_
  · refine (blk_x_apply V c t (ix2 p k)).trans (congrArg (V c main_v6 : S32768x1024.Idx → EReal) ?_)
    funext a; apply Fin.ext
    match a with
    | ⟨0, _⟩ => show win0_0.index t (0 : Fin 2) * 2048 + 1 * p.val = win0_3.index t (0 : Fin 2) * 2048 + 1 * p.val; omega
    | ⟨1, _⟩ => show win0_0.index t (1 : Fin 2) * 1024 + 1 * k.val = k.val; omega
  · refine (blk_w_apply V c t (ix2 k q)).trans (congrArg (V c main_v0 : S1024x1024.Idx → EReal) ?_)
    funext a; apply Fin.ext
    match a with
    | ⟨0, _⟩ => show win0_1.index t (0 : Fin 2) * 1024 + 1 * k.val = k.val; omega
    | ⟨1, _⟩ => show win0_1.index t (1 : Fin 2) * 128 + 1 * q.val = win0_3.index t (1 : Fin 2) * 128 + 1 * q.val; omega
  · refine (blk_b_apply V c t (ix2 (0 : Fin 1) q)).trans (congrArg (V c main_v3 : S1x1024.Idx → EReal) ?_)
    funext a; apply Fin.ext
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-- An index of the array is in point `t`'s block iff each coordinate is in the block's range on its axis. -/
theorem mem_blk (t : Fin cfg0.N) (i : S32768x1024.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v7).slice (win0_3.rect t)).set ↔ _
  rw [View.set_slice_whole, Rect.mem_set_unit]
  exact Iff.rfl

/-- Every index of the array is in some point's block: row `r` and feature `e` lie in row block `r / 2048` and column
    block `e / 128`, the block of point `(r / 2048) · 8 + e / 128`. -/
theorem cover (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hN : cfg0.N = 128 := N_0
  let t : Fin cfg0.N := ⟨(i 0).val / 2048 * 8 + (i 1).val / 128, by rw [hN]; omega⟩
  obtain ⟨e30, e31, -⟩ := idx_facts t
  have ht : t.val = (i 0).val / 2048 * 8 + (i 1).val / 128 := rfl
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-- THE ARRAY after the 128 points is `G` of the operands as the region finds them. -/
theorem arr_eq (c : Dev nD) :
    (dat0 (F := Ideal) V c).arrAt 3 cfg0.N = G (V c main_v6) (V c main_v0) (V c main_v3) :=
  (dat0 (F := Ideal) V c).arrAt_eq_of_cover 3 (G (V c main_v6) (V c main_v0) (V c main_v3)) (fun t _ => flushed_eq V c t) cover

/-- Region 0 (the plain projection): the result array `[32768, 1024]` ends holding, at row `r` and feature `e`,
    the row of the first operand against column `e` of the second, plus the third's entry `e`. -/
theorem final0 (c : Dev nD) (r : Fin 32768) (e : Fin 1024) :
    rd ((dat0 (F := Ideal) V c).arrAt 3 cfg0.N) (ix2 r e)
      = (∑ k : Fin 1024, rd (V c main_v6) (ix2 r k) * rd (V c main_v0) (ix2 k e))
        + rd (V c main_v3) (ix2 (0 : Fin 1) e) := by
  refine (congrFun (arr_eq V c) (ix2 r e)).trans ?_
  rfl

end Cert.KernelIdeal.Region0

end
-- ==== Proof.Region1.lean ====
import proofs.«123169_j44882408243764_1_alg».proof.Proof.Gen.KernelIdeal.Frame
import proofs.«123169_j44882408243764_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Spec

-- the TensorCore's buffer contents when the region is entered, at the extended reals
variable (V : (c : Dev nD) → (b : Ref sig .tc) → Buf (Elt Ideal) ((c : Thread nD τ).loc b))

/-- The zero offsets, as a function. -/
theorem hz : (![0, 0] : Fin 2 → Nat) = fun _ => 0 := funext fun a => by fin_cases a <;> rfl

/-- What the body leaves in the result's staging buffer: its one store of the whole block, holding the arithmetic of the
    three loaded blocks and of the row of each table at the point's head. -/
theorem piece {F : FTy → Type} [FloatOps F] (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S2048x128 .bf16) (harg7 : arg7.IsWhole)
    (xa : Vec F S2048x1024 .f32) (xw : Vec F S1024x128 .f32) (xb : Vec F S1x128 .f32) (xg : Vec F S8x128 .f32) (xs : Vec F S8x128 .f32) :
    out1_A_5 c i arg2 harg2 arg3 harg3 arg4 harg4 arg5 harg5 arg6 harg6 arg7 harg7 xa xw xb xg xs = k1_pay1 xa xw xb (View.ld xg (Rect.unit (s := S8x128) (k1_off1 i) S1x128.size (k1_off1_inb i))) (View.ld xs (Rect.unit (s := S8x128) (k1_off1 i) S1x128.size (k1_off1_inb i))) := by
  unfold out1_A_5
  rw [View.read_writes_eq_canon _ _ _ (cover1_A_5 c i arg2 harg2 arg3 harg3 arg4 harg4 arg5 harg5 arg6 harg6 arg7 harg7 xa xw xb xg xs)]
  unfold kernelRun1_A
  dsimp only
  sl_unfold_words
  rw [View.canon_unit_zero hz]
  simp only [View.readAt_eq_ld, harg2.read_unread, harg3.read_unread, harg4.read_unread, harg5.read_unread, harg6.read_unread,
    View.ld_unit_zero (S := S2048x1024) hz, View.ld_unit_zero (S := S1024x128) hz, View.ld_unit_zero (S := S1x128) hz]

/-! ## The body's arithmetic, read at an index -/

/-- The projection with its bias: `x·w + b`, the bias row repeated over the rows. -/
def proj (xa : Vec Ideal S2048x1024 .f32) (xw : Vec Ideal S1024x128 .f32) (xb : Vec Ideal S1x128 .f32) : FVec Ideal S2048x128 .f32 :=
  addf
    (matmul dot_S2048x1024_S1024x128_S2048x128_1_0_0_1_n_n none
      (truncf .bf16 (shapeCast S2048x1024 xa shapeCasts_S2048x1024_S2048x1024) bitsLt_bf16_f32)
      (truncf .bf16 (shapeCast S1024x128 xw shapeCasts_S1024x128_S1024x128) bitsLt_bf16_f32)
      (constant S2048x128 .f32 0x00000000#32))
    (broadcastTo S2048x128 (shapeCast S1x128 xb shapeCasts_S1x128_S1x128) broadcasts_S1x128_S2048x128)

/-- Each row's sum over its 128 lanes divided by 128, kept as a column. -/
def rowMean (v : FVec Ideal S2048x128 .f32) : FVec Ideal S2048x1 .f32 :=
  divf (shapeCast S2048x1 (multiReduction .add [1] S2048 v 0x00000000#32 reduces_S2048x128_S2048 (.inl rfl) rfl) shapeCasts_S2048_S2048x1)
    (broadcast S2048x1 (Scalar.ofBits .f32 0x43000000#32 : Ideal .f32))

/-- Each entry minus its row's mean. -/
def dev (y : FVec Ideal S2048x128 .f32) : FVec Ideal S2048x128 .f32 :=
  subf y (broadcastTo S2048x128 (rowMean y) broadcasts_S2048x1_S2048x128)

/-- The reciprocal square root of each row's variance plus the small constant, as a column. -/
def rstd (y : FVec Ideal S2048x128 .f32) : FVec Ideal S2048x1 .f32 :=
  rsqrt (addf (rowMean (mulf (dev y) (dev y))) (broadcast S2048x1 (Scalar.ofBits .f32 0x3727C5AC#32 : Ideal .f32)))

/-- A table's row, flattened and unflattened, repeated over the rows. -/
def rowB (g : Vec Ideal S1x128 .f32) : FVec Ideal S2048x128 .f32 :=
  broadcastTo S2048x128 (shapeCast S1x128 (shapeCast S128 g shapeCasts_S1x128_S128) shapeCasts_S128_S1x128) broadcasts_S1x128_S2048x128

/-- The normalisation of every row of `y` with scale row `g` and shift row `b`. -/
def lnPay (y : FVec Ideal S2048x128 .f32) (g b : Vec Ideal S1x128 .f32) : FVec Ideal S2048x128 .bf16 :=
  truncf .bf16 (addf (mulf (mulf (dev y) (broadcastTo S2048x128 (rstd y) broadcasts_S2048x1_S2048x128)) (rowB g)) (rowB b)) bitsLt_bf16_f32

/-- The body's payload is the normalisation of the projection. -/
theorem pay_eq (xa : Vec Ideal S2048x1024 .f32) (xw : Vec Ideal S1024x128 .f32) (xb : Vec Ideal S1x128 .f32) (g b : Vec Ideal S1x128 .f32) :
    k1_pay1 (F := Ideal) xa xw xb g b = lnPay (proj xa xw xb) g b := rfl

/-! ### The matmul's operand indices -/

theorem lhs_axRow (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhs_axCon (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhs_axCon (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhs_axCol (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The matmul into a zero accumulator at `(p, j)`: row `p` of the left operand against column `j` of the right. -/
theorem mm_apply (a : FVec Ideal S2048x1024 .bf16) (w : FVec Ideal S1024x128 .bf16) (p : Fin 2048) (j : Fin 128) :
    matmul dot_S2048x1024_S1024x128_S2048x128_1_0_0_1_n_n none a w (constant S2048x128 .f32 0x00000000#32) (ix2 p j)
      = ∑ k : Fin 1024, a (ix2 p k) * w (ix2 k j) := by
  refine (Ideal.matmul_constant_zero_apply dot_S2048x1024_S1024x128_S2048x128_1_0_0_1_n_n none a w (ix2 p j)).trans ?_
  rw [← Equiv.sum_comp (ValueIdx.contrEquiv1 dot_S2048x1024_S1024x128_S2048x128_1_0_0_1_n_n 1024 rfl rfl).symm]
  refine Finset.sum_congr rfl fun k _ => ?_
  have hk := ValueIdx.contrEquiv1_symm_val dot_S2048x1024_S1024x128_S2048x128_1_0_0_1_n_n 1024 rfl rfl k
  have el : dot_S2048x1024_S1024x128_S2048x128_1_0_0_1_n_n.lhsIdx (ix2 p j) ((ValueIdx.contrEquiv1 dot_S2048x1024_S1024x128_S2048x128_1_0_0_1_n_n 1024 rfl rfl).symm k) = ix2 p k := funext fun ax => Fin.ext (by
    match ax with
    | ⟨0, _⟩ => exact lhs_axRow _ _
    | ⟨1, _⟩ => exact (lhs_axCon _ _).trans hk)
  have er : dot_S2048x1024_S1024x128_S2048x128_1_0_0_1_n_n.rhsIdx (ix2 p j) ((ValueIdx.contrEquiv1 dot_S2048x1024_S1024x128_S2048x128_1_0_0_1_n_n 1024 rfl rfl).symm k) = ix2 k j := funext fun ax => Fin.ext (by
    match ax with
    | ⟨0, _⟩ => exact (rhs_axCon _ _).trans hk
    | ⟨1, _⟩ => exact rhs_axCol _ _)
  rw [el, er]

/-- The projection at `(p, j)`. -/
theorem proj_apply (xa : Vec Ideal S2048x1024 .f32) (xw : Vec Ideal S1024x128 .f32) (xb : Vec Ideal S1x128 .f32) (p : Fin 2048) (j : Fin 128) :
    proj xa xw xb (ix2 p j) = (∑ k : Fin 1024, rd xa (ix2 p k) * rd xw (ix2 k j)) + rd xb (ix2 (0 : Fin 1) j) := by
  unfold proj
  rw [shapeCast_self, shapeCast_self, shapeCast_self]
  refine congrArg₂ (· + ·) ?_ ?_
  · exact mm_apply _ _ p j
  · exact broadcastTo_1b_ab_apply xb broadcasts_S1x128_S2048x128 p j

/-! ### Sums along the lanes, columns and rows repeated -/

/-- A row index with lane `k` put back is `(p, k)`. -/
theorem lift_row (h : S2048x128.Reduces [1] S2048) (p : Fin 2048) (k : Fin (S2048x128.size 1)) :
    h.lift (ix1 p) k = ix2 p (⟨k.val, k.isLt⟩ : Fin 128) := by
  funext ax; apply Fin.ext
  fin_cases ax <;> rfl

/-- A column repeated along the lanes reads, at `(p, q)`, the column at `p`. -/
theorem colB_apply {α : Type} (w : S2048x1.Idx → α) (p : Fin 2048) (q : Fin 128) :
    broadcastTo S2048x128 w broadcasts_S2048x1_S2048x128 (ix2 p q) = w (ix2 p (0 : Fin 1)) := by
  refine broadcastTo_apply w broadcasts_S2048x1_S2048x128 (ix2 p q) (ix2 p (0 : Fin 1)) fun ax => ?_
  match ax with
  | ⟨0, _⟩ => show p.val = if (2048 : Nat) = 1 then 0 else p.val; rw [if_neg (by decide)]
  | ⟨1, _⟩ => show 0 = if (1 : Nat) = 1 then 0 else q.val; rw [if_pos rfl]

/-- The row's mean of its 128 lanes. -/
theorem rowMean_apply (v : FVec Ideal S2048x128 .f32) (p : Fin 2048) :
    rowMean v (ix2 p (0 : Fin 1)) = mean128 (fun j => v (ix2 p j)) := by
  unfold rowMean mean128 c128
  refine congrArg₂ Ideal.div ?_ rfl
  refine (shapeCast_apply _ shapeCasts_S2048_S2048x1 (ix2 p (0 : Fin 1)) (ix1 p) ?_).trans ?_
  · rw [Shape.rowMajor_val_two, Shape.rowMajor_val_one]
    show p.val = p.val * 1 + 0
    omega
  · refine (Ideal.multiReduction_add_single v 0x00000000#32 reduces_S2048x128_S2048 (.inl rfl) rfl (ix1 p)).trans ?_
    exact Finset.sum_congr rfl fun k _ => congrArg v (lift_row reduces_S2048x128_S2048 p k)

/-- An entry minus its row's mean. -/
theorem dev_apply (y : FVec Ideal S2048x128 .f32) (p : Fin 2048) (q : Fin 128) :
    dev y (ix2 p q) = y (ix2 p q) - mean128 (fun j => y (ix2 p j)) := by
  unfold dev
  exact congrArg (y (ix2 p q) - ·) ((colB_apply (rowMean y) p q).trans (rowMean_apply y p))

/-- The reciprocal square root of the row's variance plus the small constant. -/
theorem rstd_apply (y : FVec Ideal S2048x128 .f32) (p : Fin 2048) (q : Fin 128) :
    broadcastTo S2048x128 (rstd y) broadcasts_S2048x1_S2048x128 (ix2 p q)
      = Ideal.rsqrt (mean128 (fun j => (y (ix2 p j) - mean128 (fun j => y (ix2 p j))) * (y (ix2 p j) - mean128 (fun j => y (ix2 p j)))) + epsLn) := by
  refine (colB_apply (rstd y) p q).trans ?_
  unfold rstd epsLn
  refine congrArg (fun s => Ideal.rsqrt (s + Ideal.ofBits .f32 0x3727C5AC#32)) ?_
  refine (rowMean_apply (mulf (dev y) (dev y)) p).trans ?_
  exact congrArg mean128 (funext fun j => congrArg₂ (· * ·) (dev_apply y p j) (dev_apply y p j))

/-- A table's row repeated over the rows reads, at `(p, q)`, the row at `q`. -/
theorem rowB_apply (g : Vec Ideal S1x128 .f32) (p : Fin 2048) (q : Fin 128) : rowB g (ix2 p q) = rd g (ix2 (0 : Fin 1) q) := by
  unfold rowB
  rw [shapeCast_shapeCast]
  exact broadcastTo_1b_ab_apply g broadcasts_S1x128_S2048x128 p q

/-- The normalisation at `(p, q)`: the row's 128 lanes normalised, at lane `q`. -/
theorem lnPay_apply (y : FVec Ideal S2048x128 .f32) (g b : Vec Ideal S1x128 .f32) (p : Fin 2048) (q : Fin 128) :
    lnPay y g b (ix2 p q) = lnorm (fun j => y (ix2 p j)) (fun j => rd g (ix2 (0 : Fin 1) j)) (fun j => rd b (ix2 (0 : Fin 1) j)) q := by
  unfold lnPay lnorm
  exact congrArg₂ (· + ·) (congrArg₂ (· * ·) (congrArg₂ (· * ·) (dev_apply y p q) (rstd_apply y p q)) (rowB_apply g p q)) (rowB_apply b p q)

/-- The body's payload at `(p, q)`: the normalisation of row `p` of the projection, at lane `q`. -/
theorem pay_apply (xa : Vec Ideal S2048x1024 .f32) (xw : Vec Ideal S1024x128 .f32) (xb : Vec Ideal S1x128 .f32) (g b : Vec Ideal S1x128 .f32)
    (p : Fin 2048) (q : Fin 128) :
    k1_pay1 (F := Ideal) xa xw xb g b (ix2 p q)
      = lnorm (fun j => (∑ k : Fin 1024, rd xa (ix2 p k) * rd xw (ix2 k j)) + rd xb (ix2 (0 : Fin 1) j))
          (fun j => rd g (ix2 (0 : Fin 1) j)) (fun j => rd b (ix2 (0 : Fin 1) j)) q := by
  rw [pay_eq]
  refine (lnPay_apply (proj xa xw xb) g b p q).trans ?_
  exact congrArg (fun f => lnorm f (fun j => rd g (ix2 (0 : Fin 1) j)) (fun j => rd b (ix2 (0 : Fin 1) j)) q) (funext fun j => proj_apply xa xw xb p j)

/-! ## From blocks to the array -/

/-- The whole result at row `r`, head `h`, lane `l`, as a function of the region-entry arrays. -/
def Gat (c : Dev nD) (r : Fin 32768) (h : Fin 8) (l : Fin 128) : EReal :=
  lnorm (fun j => (∑ k : Fin 1024, rd (V c main_v8) (ix2 r k) * rd (V c main_v1) (ix2 k (col h j)))
            + rd (V c main_v4) (ix2 (0 : Fin 1) (col h j)))
    (fun j => rd (V c main_arg9) (ix2 h j))
    (fun j => rd (V c main_arg10) (ix2 h j)) l

/-- The whole result array: feature `e` is lane `e % 128` of head `e / 128`. -/
def Gfun (c : Dev nD) : Buf (Elt Ideal) ((c : Thread nD τ).loc main_v9) := fun i =>
  Gat V c ⟨(i 0).val, idx2_lt0 i⟩ ⟨(i 1).val / 128, by have := idx2_lt1 i; omega⟩ ⟨(i 1).val % 128, Nat.mod_lt _ (by decide)⟩

/-- The printed index maps, decided over the grid: the activations' block moves with the result's rows, the weights'
    and the bias's with its columns, the tables stay, the row the body loads of them is the result's column block. -/
theorem idx_facts : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = win1_5.index t (1 : Fin 2)
    ∧ win1_2.index t (0 : Fin 2) = 0 ∧ win1_2.index t (1 : Fin 2) = win1_5.index t (1 : Fin 2)
    ∧ win1_3.index t (0 : Fin 2) = 0 ∧ win1_3.index t (1 : Fin 2) = 0
    ∧ win1_4.index t (0 : Fin 2) = 0 ∧ win1_4.index t (1 : Fin 2) = 0
    ∧ k1_off1 (grid1.coords t) (0 : Fin 2) = win1_5.index t (1 : Fin 2) ∧ k1_off1 (grid1.coords t) (1 : Fin 2) = 0
    ∧ win1_5.index t (0 : Fin 2) < 16 ∧ win1_5.index t (1 : Fin 2) < 8 :=
  (by decide +kernel : ∀ t : Fin grid1.N, _)

/-- Every block of the result is some point's. -/
theorem idx_onto : ∀ (a : Fin 16) (b : Fin 8), ∃ t : Fin cfg1.N, win1_5.index t = ![a.val, b.val] :=
  (by decide +kernel : ∀ (a : Fin 16) (b : Fin 8), ∃ t : Fin grid1.N, win1_5.index t = ![a.val, b.val])

/-- Two normalisations agree when their lanes, scales and shifts do. -/
theorem lnorm_congr {y y' g g' b b' : Fin 128 → EReal} (hy : ∀ j, y j = y' j) (hg : ∀ j, g j = g' j) (hb : ∀ j, b j = b' j)
    (l : Fin 128) : lnorm y g b l = lnorm y' g' b' l := by
  obtain rfl : y = y' := funext hy
  obtain rfl : g = g' := funext hg
  obtain rfl : b = b' := funext hb
  rfl

/-- One row of a table, loaded through the one-row rectangle at row offset `h`. -/
theorem ld_row (x : Vec Ideal S8x128 .f32) (off : Fin 2 → Nat) (inb : ∀ a, off a + S1x128.size a ≤ S8x128.size a)
    (h : Fin 8) (hr : off 0 = h.val) (hc : off 1 = 0) (j : Fin 128) :
    (View.ld x (Rect.unit (s := S8x128) off S1x128.size inb) : Vec Ideal S1x128 .f32) (ix2 (0 : Fin 1) j) = x (ix2 h j) := by
  show x ((Rect.unit (s := S8x128) off S1x128.size inb).idx (ix2 (0 : Fin 1) j)) = x (ix2 h j)
  refine congrArg x (funext fun a => Fin.ext ?_)
  match a with
  | ⟨0, _⟩ => show off 0 + 1 * 0 = h.val; omega
  | ⟨1, _⟩ => show off 1 + 1 * j.val = j.val; omega

/-- The body at one entry of its block, from what its blocks are of the arrays: the row of the activations, the head's
    columns of the weights and of the bias, the head's row of the two tables. -/
theorem body_at (Aa : Vec Ideal S32768x1024 .f32) (Aw : Vec Ideal S1024x1024 .f32) (Ab : Vec Ideal S1x1024 .f32) (Ag As : Vec Ideal S8x128 .f32)
    (xa : Vec Ideal S2048x1024 .f32) (xw : Vec Ideal S1024x128 .f32) (xb : Vec Ideal S1x128 .f32) (xg xs : Vec Ideal S8x128 .f32)
    (off : Fin 2 → Nat) (inb : ∀ a, off a + S1x128.size a ≤ S8x128.size a)
    (r : Fin 32768) (h : Fin 8) (p : Fin 2048) (q : Fin 128)
    (hoff : off 0 = h.val) (hoff' : off 1 = 0)
    (ha : ∀ k : Fin 1024, xa (ix2 p k) = Aa (ix2 r k))
    (hw : ∀ (k : Fin 1024) (j : Fin 128), xw (ix2 k j) = Aw (ix2 k (col h j)))
    (hbi : ∀ j : Fin 128, xb (ix2 (0 : Fin 1) j) = Ab (ix2 (0 : Fin 1) (col h j)))
    (hg : xg = Ag) (hs : xs = As) :
    k1_pay1 (F := Ideal) xa xw xb (View.ld xg (Rect.unit (s := S8x128) off S1x128.size inb)) (View.ld xs (Rect.unit (s := S8x128) off S1x128.size inb)) (ix2 p q)
      = lnorm (fun j => (∑ k : Fin 1024, rd Aa (ix2 r k) * rd Aw (ix2 k (col h j))) + rd Ab (ix2 (0 : Fin 1) (col h j)))
          (fun j => rd Ag (ix2 h j)) (fun j => rd As (ix2 h j)) q := by
  subst hg hs
  refine (pay_apply xa xw xb _ _ p q).trans ?_
  exact lnorm_congr
    (fun j => congrArg₂ (· + ·) (Finset.sum_congr rfl fun k _ => congrArg₂ (· * ·) (ha k) (hw k j)) (hbi j))
    (fun j => ld_row xg off inb h hoff hoff' j) (fun j => ld_row xs off inb h hoff hoff' j) q

/-! ### Each window's block as a part of its array -/

/-- The activations' block at point `t`: rows `2048·a …` of the array, `a` the result's row block. -/
theorem xblk_apply (c : Dev nD) (t : Fin cfg1.N) (p : Fin 2048) (k : Fin 1024) (r : Fin 32768)
    (hr : r.val = win1_5.index t (0 : Fin 2) * 2048 + p.val) :
    (iblk1 V c 0 t : Vec Ideal S2048x1024 .f32) (ix2 p k) = (V c main_v8 : Vec Ideal S32768x1024 .f32) (ix2 r k) := by
  obtain ⟨ea, eb, -⟩ := idx_facts t
  unfold iblk1
  rw [View.read_apply]
  show V c main_v8 _ = V c main_v8 _
  refine congrArg (V c main_v8) (funext fun a => Fin.ext ?_)
  match a with
  | ⟨0, _⟩ => show win1_0.index t (0 : Fin 2) * 2048 + 1 * p.val = r.val; omega
  | ⟨1, _⟩ => show win1_0.index t (1 : Fin 2) * 1024 + 1 * k.val = k.val; omega

/-- The weights' block: the head's 128 columns. -/
theorem wblk_apply (c : Dev nD) (t : Fin cfg1.N) (k : Fin 1024) (j : Fin 128) (e : Fin 1024)
    (he : e.val = win1_5.index t (1 : Fin 2) * 128 + j.val) :
    (iblk1 V c 1 t : Vec Ideal S1024x128 .f32) (ix2 k j) = (V c main_v1 : Vec Ideal S1024x1024 .f32) (ix2 k e) := by
  obtain ⟨-, -, ea, eb, -⟩ := idx_facts t
  unfold iblk1
  rw [View.read_apply]
  show V c main_v1 _ = V c main_v1 _
  refine congrArg (V c main_v1) (funext fun a => Fin.ext ?_)
  match a with
  | ⟨0, _⟩ => show win1_1.index t (0 : Fin 2) * 1024 + 1 * k.val = k.val; omega
  | ⟨1, _⟩ => show win1_1.index t (1 : Fin 2) * 128 + 1 * j.val = e.val; omega

/-- The bias's block: the head's 128 columns of its one row. -/
theorem bblk_apply (c : Dev nD) (t : Fin cfg1.N) (j : Fin 128) (e : Fin 1024)
    (he : e.val = win1_5.index t (1 : Fin 2) * 128 + j.val) :
    (iblk1 V c 2 t : Vec Ideal S1x128 .f32) (ix2 (0 : Fin 1) j) = (V c main_v4 : Vec Ideal S1x1024 .f32) (ix2 (0 : Fin 1) e) := by
  obtain ⟨-, -, -, -, ea, eb, -⟩ := idx_facts t
  unfold iblk1
  rw [View.read_apply]
  show V c main_v4 _ = V c main_v4 _
  refine congrArg (V c main_v4) (funext fun a => Fin.ext ?_)
  match a with
  | ⟨0, _⟩ => show win1_2.index t (0 : Fin 2) * 1 + 1 * 0 = 0; omega
  | ⟨1, _⟩ => show win1_2.index t (1 : Fin 2) * 128 + 1 * j.val = e.val; omega

/-- The scale table's block is the table. -/
theorem gblk_eq (c : Dev nD) (t : Fin cfg1.N) :
    (iblk1 V c 3 t : Vec Ideal S8x128 .f32) = (V c main_arg9 : Vec Ideal S8x128 .f32) := by
  obtain ⟨-, -, -, -, -, -, ea, eb, -⟩ := idx_facts t
  funext y
  unfold iblk1
  rw [View.read_apply]
  show V c main_arg9 _ = V c main_arg9 _
  refine congrArg (V c main_arg9) (funext fun a => Fin.ext ?_)
  match a with
  | ⟨0, _⟩ => show win1_3.index t (0 : Fin 2) * 8 + 1 * (y 0).val = (y 0).val; omega
  | ⟨1, _⟩ => show win1_3.index t (1 : Fin 2) * 128 + 1 * (y 1).val = (y 1).val; omega

/-- The shift table's block is the table. -/
theorem sblk_eq (c : Dev nD) (t : Fin cfg1.N) :
    (iblk1 V c 4 t : Vec Ideal S8x128 .f32) = (V c main_arg10 : Vec Ideal S8x128 .f32) := by
  obtain ⟨-, -, -, -, -, -, -, -, ea, eb, -⟩ := idx_facts t
  funext y
  unfold iblk1
  rw [View.read_apply]
  show V c main_arg10 _ = V c main_arg10 _
  refine congrArg (V c main_arg10) (funext fun a => Fin.ext ?_)
  match a with
  | ⟨0, _⟩ => show win1_4.index t (0 : Fin 2) * 8 + 1 * (y 0).val = (y 0).val; omega
  | ⟨1, _⟩ => show win1_4.index t (1 : Fin 2) * 128 + 1 * (y 1).val = (y 1).val; omega

/-! ### What a point writes back, the cover, the array -/

/-- What point `t` writes back is block `t` of the whole-array function. -/
theorem flushed_eq (c : Dev nD) (t : Fin cfg1.N) :
    (dat1 V c).flushed 5 t = ((cfg1.win 5).blk t).view.read (Elt Ideal) (Gfun V c) := by
  show (cfg1.win 5).cut (grid1.coords t) ((dat1 V c).after 5 t) = _
  rw [after1_5]
  unfold outsAt1
  rw [piece (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)]
  obtain ⟨-, -, -, -, -, -, -, -, -, -, eo, eo', hb, hb'⟩ := idx_facts t
  funext j
  obtain ⟨p, q, rfl⟩ : ∃ (p : Fin 2048) (q : Fin 128), j = ix2 p q := ⟨j 0, j 1, eq_ix2 j⟩
  have hp : p.val < 2048 := p.isLt
  have hq : q.val < 128 := q.isLt
  refine (body_at (V c main_v8) (V c main_v1) (V c main_v4) (V c main_arg9) (V c main_arg10)
      (iblk1 V c 0 t) (iblk1 V c 1 t) (iblk1 V c 2 t) (iblk1 V c 3 t) (iblk1 V c 4 t)
      (k1_off1 (grid1.coords t)) (k1_off1_inb (grid1.coords t))
      (⟨win1_5.index t (0 : Fin 2) * 2048 + p.val, by omega⟩ : Fin 32768) (⟨win1_5.index t (1 : Fin 2), hb'⟩ : Fin 8) p q eo eo'
      (fun k => xblk_apply V c t p k _ rfl) (fun k j => wblk_apply V c t k j _ rfl) (fun j => bblk_apply V c t j _ rfl)
      (gblk_eq V c t) (sblk_eq V c t)).trans ?_
  show Gat V c (⟨win1_5.index t (0 : Fin 2) * 2048 + p.val, _⟩ : Fin 32768) (⟨win1_5.index t (1 : Fin 2), hb'⟩ : Fin 8) q
      = Gfun V c (((cfg1.win 5).blk t).view.emb (ix2 p q))
  unfold Gfun
  congr 1 <;> apply Fin.ext
  · show win1_5.index t (0 : Fin 2) * 2048 + p.val = win1_5.index t (0 : Fin 2) * 2048 + 1 * p.val
    omega
  · show win1_5.index t (1 : Fin 2) = (win1_5.index t (1 : Fin 2) * 128 + 1 * q.val) / 128
    omega
  · show q.val = (win1_5.index t (1 : Fin 2) * 128 + 1 * q.val) % 128
    omega

/-- An index of the array is in point `t`'s block iff each coordinate is in the block's range on its axis. -/
theorem mem_blk (t : Fin cfg1.N) (i : S32768x1024.Idx) :
    i ∈ ((cfg1.win 5).blk t).view.set ↔ ∀ a : Fin 2, win1_5.index t a * S2048x128.size a ≤ (i a).val ∧ (i a).val < win1_5.index t a * S2048x128.size a + S2048x128.size a := by
  show i ∈ ((View.whole main_v9).slice (win1_5.rect t)).set ↔ _
  rw [View.set_slice_whole, Rect.mem_set_unit]
  exact Iff.rfl

/-- Every index of the array is in the block of the point at its row's and its column's quotients by the block's sides. -/
theorem cover (i : S32768x1024.Idx) : ∃ t : Fin cfg1.N, (cfg1.win 5).flush t = true ∧ i ∈ ((cfg1.win 5).blk t).view.set := by
  have hi : (i 0).val < 32768 := idx2_lt0 i
  have hi' : (i 1).val < 1024 := idx2_lt1 i
  obtain ⟨t, ht⟩ := idx_onto ⟨(i 0).val / 2048, by omega⟩ ⟨(i 1).val / 128, by omega⟩
  have q : win1_5.index t (0 : Fin 2) = (i 0).val / 2048 := congrFun ht 0
  have q' : win1_5.index t (1 : Fin 2) = (i 1).val / 128 := congrFun ht 1
  refine ⟨t, flush1_5 t, ?_⟩
  rw [mem_blk]
  intro a
  match a with
  | ⟨0, _⟩ => show win1_5.index t (0 : Fin 2) * 2048 ≤ (i 0).val ∧ (i 0).val < win1_5.index t (0 : Fin 2) * 2048 + 2048; omega
  | ⟨1, _⟩ => show win1_5.index t (1 : Fin 2) * 128 ≤ (i 1).val ∧ (i 1).val < win1_5.index t (1 : Fin 2) * 128 + 128; omega

/-- The result array after the last point is the whole-array function. -/
theorem arr_eq (c : Dev nD) : (dat1 V c).arrAt 5 cfg1.N = Gfun V c :=
  (dat1 V c).arrAt_eq_of_cover 5 (Gfun V c) (fun t _ => flushed_eq V c t) cover

/-- Region 1 (projection and per-head layer normalisation of the keys): the result array `[32768, 1024]` ends
    holding, at row `r`, head `h`, lane `l`, the normalisation of the head's 128 projected lanes. -/
theorem final1 (c : Dev nD) (r : Fin 32768) (h : Fin 8) (l : Fin 128) :
    rd ((dat1 (F := Ideal) V c).arrAt 5 cfg1.N) (ix2 r (col h l))
      = lnorm (fun j => (∑ k : Fin 1024, rd (V c main_v8) (ix2 r k) * rd (V c main_v1) (ix2 k (col h j)))
                + rd (V c main_v4) (ix2 (0 : Fin 1) (col h j)))
          (fun j => rd (V c main_arg9) (ix2 h j))
          (fun j => rd (V c main_arg10) (ix2 h j)) l := by
  refine (congrFun (arr_eq V c) (ix2 r (col h l))).trans ?_
  unfold Gfun
  show Gat V c _ _ _ = Gat V c r h l
  have hh : h.val < 8 := h.isLt
  have hl : l.val < 128 := l.isLt
  congr 1 <;> apply Fin.ext
  · show (col h l).val / 128 = h.val
    rw [col_val]; omega
  · show (col h l).val % 128 = l.val
    rw [col_val]; omega

end Cert.KernelIdeal.Region1

end
-- ==== Proof.Region2.lean ====
import proofs.«123169_j44882408243764_1_alg».proof.Proof.Gen.KernelIdeal.Frame
import proofs.«123169_j44882408243764_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Spec

-- the TensorCore's buffer contents when the region is entered, at the extended reals
variable (V : (c : Dev nD) → (b : Ref sig .tc) → Buf (Elt Ideal) ((c : Thread nD τ).loc b))

/-- The zero offsets, as a function. -/
theorem hz : (![0, 0] : Fin 2 → Nat) = fun _ => 0 := funext fun a => by fin_cases a <;> rfl

/-- What the body leaves in the result's staging buffer: its one store of the whole block, holding the arithmetic of the
    three loaded blocks and of the row of each table at the point's head. -/
theorem piece {F : FTy → Type} [FloatOps F] (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S2048x128 .bf16) (harg7 : arg7.IsWhole)
    (xa : Vec F S2048x1024 .f32) (xw : Vec F S1024x128 .f32) (xb : Vec F S1x128 .f32) (xg : Vec F S8x128 .f32) (xs : Vec F S8x128 .f32) :
    out2_A_5 c i arg2 harg2 arg3 harg3 arg4 harg4 arg5 harg5 arg6 harg6 arg7 harg7 xa xw xb xg xs = k2_pay1 xa xw xb (View.ld xg (Rect.unit (s := S8x128) (k2_off1 i) S1x128.size (k2_off1_inb i))) (View.ld xs (Rect.unit (s := S8x128) (k2_off1 i) S1x128.size (k2_off1_inb i))) := by
  unfold out2_A_5
  rw [View.read_writes_eq_canon _ _ _ (cover2_A_5 c i arg2 harg2 arg3 harg3 arg4 harg4 arg5 harg5 arg6 harg6 arg7 harg7 xa xw xb xg xs)]
  unfold kernelRun2_A
  dsimp only
  sl_unfold_words
  rw [View.canon_unit_zero hz]
  simp only [View.readAt_eq_ld, harg2.read_unread, harg3.read_unread, harg4.read_unread, harg5.read_unread, harg6.read_unread,
    View.ld_unit_zero (S := S2048x1024) hz, View.ld_unit_zero (S := S1024x128) hz, View.ld_unit_zero (S := S1x128) hz]

/-! ## The body's arithmetic, read at an index -/

/-- The projection with its bias: `x·w + b`, the bias row repeated over the rows. -/
def proj (xa : Vec Ideal S2048x1024 .f32) (xw : Vec Ideal S1024x128 .f32) (xb : Vec Ideal S1x128 .f32) : FVec Ideal S2048x128 .f32 :=
  addf
    (matmul dot_S2048x1024_S1024x128_S2048x128_1_0_0_1_n_n none
      (truncf .bf16 (shapeCast S2048x1024 xa shapeCasts_S2048x1024_S2048x1024) bitsLt_bf16_f32)
      (truncf .bf16 (shapeCast S1024x128 xw shapeCasts_S1024x128_S1024x128) bitsLt_bf16_f32)
      (constant S2048x128 .f32 0x00000000#32))
    (broadcastTo S2048x128 (shapeCast S1x128 xb shapeCasts_S1x128_S1x128) broadcasts_S1x128_S2048x128)

/-- Each row's sum over its 128 lanes divided by 128, kept as a column. -/
def rowMean (v : FVec Ideal S2048x128 .f32) : FVec Ideal S2048x1 .f32 :=
  divf (shapeCast S2048x1 (multiReduction .add [1] S2048 v 0x00000000#32 reduces_S2048x128_S2048 (.inl rfl) rfl) shapeCasts_S2048_S2048x1)
    (broadcast S2048x1 (Scalar.ofBits .f32 0x43000000#32 : Ideal .f32))

/-- Each entry minus its row's mean. -/
def dev (y : FVec Ideal S2048x128 .f32) : FVec Ideal S2048x128 .f32 :=
  subf y (broadcastTo S2048x128 (rowMean y) broadcasts_S2048x1_S2048x128)

/-- The reciprocal square root of each row's variance plus the small constant, as a column. -/
def rstd (y : FVec Ideal S2048x128 .f32) : FVec Ideal S2048x1 .f32 :=
  rsqrt (addf (rowMean (mulf (dev y) (dev y))) (broadcast S2048x1 (Scalar.ofBits .f32 0x3727C5AC#32 : Ideal .f32)))

/-- A table's row, flattened and unflattened, repeated over the rows. -/
def rowB (g : Vec Ideal S1x128 .f32) : FVec Ideal S2048x128 .f32 :=
  broadcastTo S2048x128 (shapeCast S1x128 (shapeCast S128 g shapeCasts_S1x128_S128) shapeCasts_S128_S1x128) broadcasts_S1x128_S2048x128

/-- The normalisation of every row of `y` with scale row `g` and shift row `b`. -/
def lnPay (y : FVec Ideal S2048x128 .f32) (g b : Vec Ideal S1x128 .f32) : FVec Ideal S2048x128 .bf16 :=
  truncf .bf16 (addf (mulf (mulf (dev y) (broadcastTo S2048x128 (rstd y) broadcasts_S2048x1_S2048x128)) (rowB g)) (rowB b)) bitsLt_bf16_f32

/-- The body's payload is the normalisation of the projection. -/
theorem pay_eq (xa : Vec Ideal S2048x1024 .f32) (xw : Vec Ideal S1024x128 .f32) (xb : Vec Ideal S1x128 .f32) (g b : Vec Ideal S1x128 .f32) :
    k2_pay1 (F := Ideal) xa xw xb g b = lnPay (proj xa xw xb) g b := rfl

/-! ### The matmul's operand indices -/

theorem lhs_axRow (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhs_axCon (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhs_axCon (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhs_axCol (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The matmul into a zero accumulator at `(p, j)`: row `p` of the left operand against column `j` of the right. -/
theorem mm_apply (a : FVec Ideal S2048x1024 .bf16) (w : FVec Ideal S1024x128 .bf16) (p : Fin 2048) (j : Fin 128) :
    matmul dot_S2048x1024_S1024x128_S2048x128_1_0_0_1_n_n none a w (constant S2048x128 .f32 0x00000000#32) (ix2 p j)
      = ∑ k : Fin 1024, a (ix2 p k) * w (ix2 k j) := by
  refine (Ideal.matmul_constant_zero_apply dot_S2048x1024_S1024x128_S2048x128_1_0_0_1_n_n none a w (ix2 p j)).trans ?_
  rw [← Equiv.sum_comp (ValueIdx.contrEquiv1 dot_S2048x1024_S1024x128_S2048x128_1_0_0_1_n_n 1024 rfl rfl).symm]
  refine Finset.sum_congr rfl fun k _ => ?_
  have hk := ValueIdx.contrEquiv1_symm_val dot_S2048x1024_S1024x128_S2048x128_1_0_0_1_n_n 1024 rfl rfl k
  have el : dot_S2048x1024_S1024x128_S2048x128_1_0_0_1_n_n.lhsIdx (ix2 p j) ((ValueIdx.contrEquiv1 dot_S2048x1024_S1024x128_S2048x128_1_0_0_1_n_n 1024 rfl rfl).symm k) = ix2 p k := funext fun ax => Fin.ext (by
    match ax with
    | ⟨0, _⟩ => exact lhs_axRow _ _
    | ⟨1, _⟩ => exact (lhs_axCon _ _).trans hk)
  have er : dot_S2048x1024_S1024x128_S2048x128_1_0_0_1_n_n.rhsIdx (ix2 p j) ((ValueIdx.contrEquiv1 dot_S2048x1024_S1024x128_S2048x128_1_0_0_1_n_n 1024 rfl rfl).symm k) = ix2 k j := funext fun ax => Fin.ext (by
    match ax with
    | ⟨0, _⟩ => exact (rhs_axCon _ _).trans hk
    | ⟨1, _⟩ => exact rhs_axCol _ _)
  rw [el, er]

/-- The projection at `(p, j)`. -/
theorem proj_apply (xa : Vec Ideal S2048x1024 .f32) (xw : Vec Ideal S1024x128 .f32) (xb : Vec Ideal S1x128 .f32) (p : Fin 2048) (j : Fin 128) :
    proj xa xw xb (ix2 p j) = (∑ k : Fin 1024, rd xa (ix2 p k) * rd xw (ix2 k j)) + rd xb (ix2 (0 : Fin 1) j) := by
  unfold proj
  rw [shapeCast_self, shapeCast_self, shapeCast_self]
  refine congrArg₂ (· + ·) ?_ ?_
  · exact mm_apply _ _ p j
  · exact broadcastTo_1b_ab_apply xb broadcasts_S1x128_S2048x128 p j

/-! ### Sums along the lanes, columns and rows repeated -/

/-- A row index with lane `k` put back is `(p, k)`. -/
theorem lift_row (h : S2048x128.Reduces [1] S2048) (p : Fin 2048) (k : Fin (S2048x128.size 1)) :
    h.lift (ix1 p) k = ix2 p (⟨k.val, k.isLt⟩ : Fin 128) := by
  funext ax; apply Fin.ext
  fin_cases ax <;> rfl

/-- A column repeated along the lanes reads, at `(p, q)`, the column at `p`. -/
theorem colB_apply {α : Type} (w : S2048x1.Idx → α) (p : Fin 2048) (q : Fin 128) :
    broadcastTo S2048x128 w broadcasts_S2048x1_S2048x128 (ix2 p q) = w (ix2 p (0 : Fin 1)) := by
  refine broadcastTo_apply w broadcasts_S2048x1_S2048x128 (ix2 p q) (ix2 p (0 : Fin 1)) fun ax => ?_
  match ax with
  | ⟨0, _⟩ => show p.val = if (2048 : Nat) = 1 then 0 else p.val; rw [if_neg (by decide)]
  | ⟨1, _⟩ => show 0 = if (1 : Nat) = 1 then 0 else q.val; rw [if_pos rfl]

/-- The row's mean of its 128 lanes. -/
theorem rowMean_apply (v : FVec Ideal S2048x128 .f32) (p : Fin 2048) :
    rowMean v (ix2 p (0 : Fin 1)) = mean128 (fun j => v (ix2 p j)) := by
  unfold rowMean mean128 c128
  refine congrArg₂ Ideal.div ?_ rfl
  refine (shapeCast_apply _ shapeCasts_S2048_S2048x1 (ix2 p (0 : Fin 1)) (ix1 p) ?_).trans ?_
  · rw [Shape.rowMajor_val_two, Shape.rowMajor_val_one]
    show p.val = p.val * 1 + 0
    omega
  · refine (Ideal.multiReduction_add_single v 0x00000000#32 reduces_S2048x128_S2048 (.inl rfl) rfl (ix1 p)).trans ?_
    exact Finset.sum_congr rfl fun k _ => congrArg v (lift_row reduces_S2048x128_S2048 p k)

/-- An entry minus its row's mean. -/
theorem dev_apply (y : FVec Ideal S2048x128 .f32) (p : Fin 2048) (q : Fin 128) :
    dev y (ix2 p q) = y (ix2 p q) - mean128 (fun j => y (ix2 p j)) := by
  unfold dev
  exact congrArg (y (ix2 p q) - ·) ((colB_apply (rowMean y) p q).trans (rowMean_apply y p))

/-- The reciprocal square root of the row's variance plus the small constant. -/
theorem rstd_apply (y : FVec Ideal S2048x128 .f32) (p : Fin 2048) (q : Fin 128) :
    broadcastTo S2048x128 (rstd y) broadcasts_S2048x1_S2048x128 (ix2 p q)
      = Ideal.rsqrt (mean128 (fun j => (y (ix2 p j) - mean128 (fun j => y (ix2 p j))) * (y (ix2 p j) - mean128 (fun j => y (ix2 p j)))) + epsLn) := by
  refine (colB_apply (rstd y) p q).trans ?_
  unfold rstd epsLn
  refine congrArg (fun s => Ideal.rsqrt (s + Ideal.ofBits .f32 0x3727C5AC#32)) ?_
  refine (rowMean_apply (mulf (dev y) (dev y)) p).trans ?_
  exact congrArg mean128 (funext fun j => congrArg₂ (· * ·) (dev_apply y p j) (dev_apply y p j))

/-- A table's row repeated over the rows reads, at `(p, q)`, the row at `q`. -/
theorem rowB_apply (g : Vec Ideal S1x128 .f32) (p : Fin 2048) (q : Fin 128) : rowB g (ix2 p q) = rd g (ix2 (0 : Fin 1) q) := by
  unfold rowB
  rw [shapeCast_shapeCast]
  exact broadcastTo_1b_ab_apply g broadcasts_S1x128_S2048x128 p q

/-- The normalisation at `(p, q)`: the row's 128 lanes normalised, at lane `q`. -/
theorem lnPay_apply (y : FVec Ideal S2048x128 .f32) (g b : Vec Ideal S1x128 .f32) (p : Fin 2048) (q : Fin 128) :
    lnPay y g b (ix2 p q) = lnorm (fun j => y (ix2 p j)) (fun j => rd g (ix2 (0 : Fin 1) j)) (fun j => rd b (ix2 (0 : Fin 1) j)) q := by
  unfold lnPay lnorm
  exact congrArg₂ (· + ·) (congrArg₂ (· * ·) (congrArg₂ (· * ·) (dev_apply y p q) (rstd_apply y p q)) (rowB_apply g p q)) (rowB_apply b p q)

/-- The body's payload at `(p, q)`: the normalisation of row `p` of the projection, at lane `q`. -/
theorem pay_apply (xa : Vec Ideal S2048x1024 .f32) (xw : Vec Ideal S1024x128 .f32) (xb : Vec Ideal S1x128 .f32) (g b : Vec Ideal S1x128 .f32)
    (p : Fin 2048) (q : Fin 128) :
    k2_pay1 (F := Ideal) xa xw xb g b (ix2 p q)
      = lnorm (fun j => (∑ k : Fin 1024, rd xa (ix2 p k) * rd xw (ix2 k j)) + rd xb (ix2 (0 : Fin 1) j))
          (fun j => rd g (ix2 (0 : Fin 1) j)) (fun j => rd b (ix2 (0 : Fin 1) j)) q := by
  rw [pay_eq]
  refine (lnPay_apply (proj xa xw xb) g b p q).trans ?_
  exact congrArg (fun f => lnorm f (fun j => rd g (ix2 (0 : Fin 1) j)) (fun j => rd b (ix2 (0 : Fin 1) j)) q) (funext fun j => proj_apply xa xw xb p j)

/-! ## From blocks to the array -/

/-- The whole result at row `r`, head `h`, lane `l`, as a function of the region-entry arrays. -/
def Gat (c : Dev nD) (r : Fin 32768) (h : Fin 8) (l : Fin 128) : EReal :=
  lnorm (fun j => (∑ k : Fin 1024, rd (V c main_v10) (ix2 r k) * rd (V c main_v2) (ix2 k (col h j)))
            + rd (V c main_v5) (ix2 (0 : Fin 1) (col h j)))
    (fun j => rd (V c main_arg11) (ix2 h j))
    (fun j => rd (V c main_arg12) (ix2 h j)) l

/-- The whole result array: feature `e` is lane `e % 128` of head `e / 128`. -/
def Gfun (c : Dev nD) : Buf (Elt Ideal) ((c : Thread nD τ).loc main_v11) := fun i =>
  Gat V c ⟨(i 0).val, idx2_lt0 i⟩ ⟨(i 1).val / 128, by have := idx2_lt1 i; omega⟩ ⟨(i 1).val % 128, Nat.mod_lt _ (by decide)⟩

/-- The printed index maps, decided over the grid: the activations' block moves with the result's rows, the weights'
    and the bias's with its columns, the tables stay, the row the body loads of them is the result's column block. -/
theorem idx_facts : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = win2_5.index t (1 : Fin 2)
    ∧ win2_2.index t (0 : Fin 2) = 0 ∧ win2_2.index t (1 : Fin 2) = win2_5.index t (1 : Fin 2)
    ∧ win2_3.index t (0 : Fin 2) = 0 ∧ win2_3.index t (1 : Fin 2) = 0
    ∧ win2_4.index t (0 : Fin 2) = 0 ∧ win2_4.index t (1 : Fin 2) = 0
    ∧ k2_off1 (grid2.coords t) (0 : Fin 2) = win2_5.index t (1 : Fin 2) ∧ k2_off1 (grid2.coords t) (1 : Fin 2) = 0
    ∧ win2_5.index t (0 : Fin 2) < 16 ∧ win2_5.index t (1 : Fin 2) < 8 :=
  (by decide +kernel : ∀ t : Fin grid2.N, _)

/-- Every block of the result is some point's. -/
theorem idx_onto : ∀ (a : Fin 16) (b : Fin 8), ∃ t : Fin cfg2.N, win2_5.index t = ![a.val, b.val] :=
  (by decide +kernel : ∀ (a : Fin 16) (b : Fin 8), ∃ t : Fin grid2.N, win2_5.index t = ![a.val, b.val])

/-- Two normalisations agree when their lanes, scales and shifts do. -/
theorem lnorm_congr {y y' g g' b b' : Fin 128 → EReal} (hy : ∀ j, y j = y' j) (hg : ∀ j, g j = g' j) (hb : ∀ j, b j = b' j)
    (l : Fin 128) : lnorm y g b l = lnorm y' g' b' l := by
  obtain rfl : y = y' := funext hy
  obtain rfl : g = g' := funext hg
  obtain rfl : b = b' := funext hb
  rfl

/-- One row of a table, loaded through the one-row rectangle at row offset `h`. -/
theorem ld_row (x : Vec Ideal S8x128 .f32) (off : Fin 2 → Nat) (inb : ∀ a, off a + S1x128.size a ≤ S8x128.size a)
    (h : Fin 8) (hr : off 0 = h.val) (hc : off 1 = 0) (j : Fin 128) :
    (View.ld x (Rect.unit (s := S8x128) off S1x128.size inb) : Vec Ideal S1x128 .f32) (ix2 (0 : Fin 1) j) = x (ix2 h j) := by
  show x ((Rect.unit (s := S8x128) off S1x128.size inb).idx (ix2 (0 : Fin 1) j)) = x (ix2 h j)
  refine congrArg x (funext fun a => Fin.ext ?_)
  match a with
  | ⟨0, _⟩ => show off 0 + 1 * 0 = h.val; omega
  | ⟨1, _⟩ => show off 1 + 1 * j.val = j.val; omega

/-- The body at one entry of its block, from what its blocks are of the arrays: the row of the activations, the head's
    columns of the weights and of the bias, the head's row of the two tables. -/
theorem body_at (Aa : Vec Ideal S32768x1024 .f32) (Aw : Vec Ideal S1024x1024 .f32) (Ab : Vec Ideal S1x1024 .f32) (Ag As : Vec Ideal S8x128 .f32)
    (xa : Vec Ideal S2048x1024 .f32) (xw : Vec Ideal S1024x128 .f32) (xb : Vec Ideal S1x128 .f32) (xg xs : Vec Ideal S8x128 .f32)
    (off : Fin 2 → Nat) (inb : ∀ a, off a + S1x128.size a ≤ S8x128.size a)
    (r : Fin 32768) (h : Fin 8) (p : Fin 2048) (q : Fin 128)
    (hoff : off 0 = h.val) (hoff' : off 1 = 0)
    (ha : ∀ k : Fin 1024, xa (ix2 p k) = Aa (ix2 r k))
    (hw : ∀ (k : Fin 1024) (j : Fin 128), xw (ix2 k j) = Aw (ix2 k (col h j)))
    (hbi : ∀ j : Fin 128, xb (ix2 (0 : Fin 1) j) = Ab (ix2 (0 : Fin 1) (col h j)))
    (hg : xg = Ag) (hs : xs = As) :
    k2_pay1 (F := Ideal) xa xw xb (View.ld xg (Rect.unit (s := S8x128) off S1x128.size inb)) (View.ld xs (Rect.unit (s := S8x128) off S1x128.size inb)) (ix2 p q)
      = lnorm (fun j => (∑ k : Fin 1024, rd Aa (ix2 r k) * rd Aw (ix2 k (col h j))) + rd Ab (ix2 (0 : Fin 1) (col h j)))
          (fun j => rd Ag (ix2 h j)) (fun j => rd As (ix2 h j)) q := by
  subst hg hs
  refine (pay_apply xa xw xb _ _ p q).trans ?_
  exact lnorm_congr
    (fun j => congrArg₂ (· + ·) (Finset.sum_congr rfl fun k _ => congrArg₂ (· * ·) (ha k) (hw k j)) (hbi j))
    (fun j => ld_row xg off inb h hoff hoff' j) (fun j => ld_row xs off inb h hoff hoff' j) q

/-! ### Each window's block as a part of its array -/

/-- The activations' block at point `t`: rows `2048·a …` of the array, `a` the result's row block. -/
theorem xblk_apply (c : Dev nD) (t : Fin cfg2.N) (p : Fin 2048) (k : Fin 1024) (r : Fin 32768)
    (hr : r.val = win2_5.index t (0 : Fin 2) * 2048 + p.val) :
    (iblk2 V c 0 t : Vec Ideal S2048x1024 .f32) (ix2 p k) = (V c main_v10 : Vec Ideal S32768x1024 .f32) (ix2 r k) := by
  obtain ⟨ea, eb, -⟩ := idx_facts t
  unfold iblk2
  rw [View.read_apply]
  show V c main_v10 _ = V c main_v10 _
  refine congrArg (V c main_v10) (funext fun a => Fin.ext ?_)
  match a with
  | ⟨0, _⟩ => show win2_0.index t (0 : Fin 2) * 2048 + 1 * p.val = r.val; omega
  | ⟨1, _⟩ => show win2_0.index t (1 : Fin 2) * 1024 + 1 * k.val = k.val; omega

/-- The weights' block: the head's 128 columns. -/
theorem wblk_apply (c : Dev nD) (t : Fin cfg2.N) (k : Fin 1024) (j : Fin 128) (e : Fin 1024)
    (he : e.val = win2_5.index t (1 : Fin 2) * 128 + j.val) :
    (iblk2 V c 1 t : Vec Ideal S1024x128 .f32) (ix2 k j) = (V c main_v2 : Vec Ideal S1024x1024 .f32) (ix2 k e) := by
  obtain ⟨-, -, ea, eb, -⟩ := idx_facts t
  unfold iblk2
  rw [View.read_apply]
  show V c main_v2 _ = V c main_v2 _
  refine congrArg (V c main_v2) (funext fun a => Fin.ext ?_)
  match a with
  | ⟨0, _⟩ => show win2_1.index t (0 : Fin 2) * 1024 + 1 * k.val = k.val; omega
  | ⟨1, _⟩ => show win2_1.index t (1 : Fin 2) * 128 + 1 * j.val = e.val; omega

/-- The bias's block: the head's 128 columns of its one row. -/
theorem bblk_apply (c : Dev nD) (t : Fin cfg2.N) (j : Fin 128) (e : Fin 1024)
    (he : e.val = win2_5.index t (1 : Fin 2) * 128 + j.val) :
    (iblk2 V c 2 t : Vec Ideal S1x128 .f32) (ix2 (0 : Fin 1) j) = (V c main_v5 : Vec Ideal S1x1024 .f32) (ix2 (0 : Fin 1) e) := by
  obtain ⟨-, -, -, -, ea, eb, -⟩ := idx_facts t
  unfold iblk2
  rw [View.read_apply]
  show V c main_v5 _ = V c main_v5 _
  refine congrArg (V c main_v5) (funext fun a => Fin.ext ?_)
  match a with
  | ⟨0, _⟩ => show win2_2.index t (0 : Fin 2) * 1 + 1 * 0 = 0; omega
  | ⟨1, _⟩ => show win2_2.index t (1 : Fin 2) * 128 + 1 * j.val = e.val; omega

/-- The scale table's block is the table. -/
theorem gblk_eq (c : Dev nD) (t : Fin cfg2.N) :
    (iblk2 V c 3 t : Vec Ideal S8x128 .f32) = (V c main_arg11 : Vec Ideal S8x128 .f32) := by
  obtain ⟨-, -, -, -, -, -, ea, eb, -⟩ := idx_facts t
  funext y
  unfold iblk2
  rw [View.read_apply]
  show V c main_arg11 _ = V c main_arg11 _
  refine congrArg (V c main_arg11) (funext fun a => Fin.ext ?_)
  match a with
  | ⟨0, _⟩ => show win2_3.index t (0 : Fin 2) * 8 + 1 * (y 0).val = (y 0).val; omega
  | ⟨1, _⟩ => show win2_3.index t (1 : Fin 2) * 128 + 1 * (y 1).val = (y 1).val; omega

/-- The shift table's block is the table. -/
theorem sblk_eq (c : Dev nD) (t : Fin cfg2.N) :
    (iblk2 V c 4 t : Vec Ideal S8x128 .f32) = (V c main_arg12 : Vec Ideal S8x128 .f32) := by
  obtain ⟨-, -, -, -, -, -, -, -, ea, eb, -⟩ := idx_facts t
  funext y
  unfold iblk2
  rw [View.read_apply]
  show V c main_arg12 _ = V c main_arg12 _
  refine congrArg (V c main_arg12) (funext fun a => Fin.ext ?_)
  match a with
  | ⟨0, _⟩ => show win2_4.index t (0 : Fin 2) * 8 + 1 * (y 0).val = (y 0).val; omega
  | ⟨1, _⟩ => show win2_4.index t (1 : Fin 2) * 128 + 1 * (y 1).val = (y 1).val; omega

/-! ### What a point writes back, the cover, the array -/

/-- What point `t` writes back is block `t` of the whole-array function. -/
theorem flushed_eq (c : Dev nD) (t : Fin cfg2.N) :
    (dat2 V c).flushed 5 t = ((cfg2.win 5).blk t).view.read (Elt Ideal) (Gfun V c) := by
  show (cfg2.win 5).cut (grid2.coords t) ((dat2 V c).after 5 t) = _
  rw [after2_5]
  unfold outsAt2
  rw [piece (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (iblk2 V c 0 t) (iblk2 V c 1 t) (iblk2 V c 2 t) (iblk2 V c 3 t) (iblk2 V c 4 t)]
  obtain ⟨-, -, -, -, -, -, -, -, -, -, eo, eo', hb, hb'⟩ := idx_facts t
  funext j
  obtain ⟨p, q, rfl⟩ : ∃ (p : Fin 2048) (q : Fin 128), j = ix2 p q := ⟨j 0, j 1, eq_ix2 j⟩
  have hp : p.val < 2048 := p.isLt
  have hq : q.val < 128 := q.isLt
  refine (body_at (V c main_v10) (V c main_v2) (V c main_v5) (V c main_arg11) (V c main_arg12)
      (iblk2 V c 0 t) (iblk2 V c 1 t) (iblk2 V c 2 t) (iblk2 V c 3 t) (iblk2 V c 4 t)
      (k2_off1 (grid2.coords t)) (k2_off1_inb (grid2.coords t))
      (⟨win2_5.index t (0 : Fin 2) * 2048 + p.val, by omega⟩ : Fin 32768) (⟨win2_5.index t (1 : Fin 2), hb'⟩ : Fin 8) p q eo eo'
      (fun k => xblk_apply V c t p k _ rfl) (fun k j => wblk_apply V c t k j _ rfl) (fun j => bblk_apply V c t j _ rfl)
      (gblk_eq V c t) (sblk_eq V c t)).trans ?_
  show Gat V c (⟨win2_5.index t (0 : Fin 2) * 2048 + p.val, _⟩ : Fin 32768) (⟨win2_5.index t (1 : Fin 2), hb'⟩ : Fin 8) q
      = Gfun V c (((cfg2.win 5).blk t).view.emb (ix2 p q))
  unfold Gfun
  congr 1 <;> apply Fin.ext
  · show win2_5.index t (0 : Fin 2) * 2048 + p.val = win2_5.index t (0 : Fin 2) * 2048 + 1 * p.val
    omega
  · show win2_5.index t (1 : Fin 2) = (win2_5.index t (1 : Fin 2) * 128 + 1 * q.val) / 128
    omega
  · show q.val = (win2_5.index t (1 : Fin 2) * 128 + 1 * q.val) % 128
    omega

/-- An index of the array is in point `t`'s block iff each coordinate is in the block's range on its axis. -/
theorem mem_blk (t : Fin cfg2.N) (i : S32768x1024.Idx) :
    i ∈ ((cfg2.win 5).blk t).view.set ↔ ∀ a : Fin 2, win2_5.index t a * S2048x128.size a ≤ (i a).val ∧ (i a).val < win2_5.index t a * S2048x128.size a + S2048x128.size a := by
  show i ∈ ((View.whole main_v11).slice (win2_5.rect t)).set ↔ _
  rw [View.set_slice_whole, Rect.mem_set_unit]
  exact Iff.rfl

/-- Every index of the array is in the block of the point at its row's and its column's quotients by the block's sides. -/
theorem cover (i : S32768x1024.Idx) : ∃ t : Fin cfg2.N, (cfg2.win 5).flush t = true ∧ i ∈ ((cfg2.win 5).blk t).view.set := by
  have hi : (i 0).val < 32768 := idx2_lt0 i
  have hi' : (i 1).val < 1024 := idx2_lt1 i
  obtain ⟨t, ht⟩ := idx_onto ⟨(i 0).val / 2048, by omega⟩ ⟨(i 1).val / 128, by omega⟩
  have q : win2_5.index t (0 : Fin 2) = (i 0).val / 2048 := congrFun ht 0
  have q' : win2_5.index t (1 : Fin 2) = (i 1).val / 128 := congrFun ht 1
  refine ⟨t, flush2_5 t, ?_⟩
  rw [mem_blk]
  intro a
  match a with
  | ⟨0, _⟩ => show win2_5.index t (0 : Fin 2) * 2048 ≤ (i 0).val ∧ (i 0).val < win2_5.index t (0 : Fin 2) * 2048 + 2048; omega
  | ⟨1, _⟩ => show win2_5.index t (1 : Fin 2) * 128 ≤ (i 1).val ∧ (i 1).val < win2_5.index t (1 : Fin 2) * 128 + 128; omega

/-- The result array after the last point is the whole-array function. -/
theorem arr_eq (c : Dev nD) : (dat2 V c).arrAt 5 cfg2.N = Gfun V c :=
  (dat2 V c).arrAt_eq_of_cover 5 (Gfun V c) (fun t _ => flushed_eq V c t) cover

/-- Region 2 (projection and per-head layer normalisation of the values): the result array `[32768, 1024]` ends
    holding, at row `r`, head `h`, lane `l`, the normalisation of the head's 128 projected lanes. -/
theorem final2 (c : Dev nD) (r : Fin 32768) (h : Fin 8) (l : Fin 128) :
    rd ((dat2 (F := Ideal) V c).arrAt 5 cfg2.N) (ix2 r (col h l))
      = lnorm (fun j => (∑ k : Fin 1024, rd (V c main_v10) (ix2 r k) * rd (V c main_v2) (ix2 k (col h j)))
                + rd (V c main_v5) (ix2 (0 : Fin 1) (col h j)))
          (fun j => rd (V c main_arg11) (ix2 h j))
          (fun j => rd (V c main_arg12) (ix2 h j)) l := by
  refine (congrFun (arr_eq V c) (ix2 r (col h l))).trans ?_
  unfold Gfun
  show Gat V c _ _ _ = Gat V c r h l
  have hh : h.val < 8 := h.isLt
  have hl : l.val < 128 := l.isLt
  congr 1 <;> apply Fin.ext
  · show (col h l).val / 128 = h.val
    rw [col_val]; omega
  · show (col h l).val % 128 = l.val
    rw [col_val]; omega

end Cert.KernelIdeal.Region2

end
-- ==== Proof.Region3.lean ====
import proofs.«123169_j44882408243764_1_alg».proof.Proof.Gen.KernelIdeal.Frame
import proofs.«123169_j44882408243764_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.Spec

-- the TensorCore's buffer contents when the region is entered, at the extended reals
variable (V : (c : Dev nD) → (b : Ref sig .tc) → Buf (Elt Ideal) ((c : Thread nD τ).loc b))

/-! ## The two contractions' operand indices, axis by axis -/

theorem lhsA_0 (j : S128x128.Idx) (q : dot_S8192x128_S8192x128_S128x128_0_0_1_1_n_n.contr.Idx) :
    (dot_S8192x128_S8192x128_S128x128_0_0_1_1_n_n.lhsIdx j q 0).val = (q ⟨0, by decide⟩).val :=
  dot_S8192x128_S8192x128_S128x128_0_0_1_1_n_n.lhsIdx_val_of_single rfl j q
theorem lhsA_1 (j : S128x128.Idx) (q : dot_S8192x128_S8192x128_S128x128_0_0_1_1_n_n.contr.Idx) :
    (dot_S8192x128_S8192x128_S128x128_0_0_1_1_n_n.lhsIdx j q 1).val = (j 0).val := by
  unfold DotDims.lhsIdx
  rw [dif_neg (show ¬(1 : Fin S8192x128.rank) ∈ dot_S8192x128_S8192x128_S128x128_0_0_1_1_n_n.lhsBatch by decide), dif_pos (show (1 : Fin S8192x128.rank) ∈ dot_S8192x128_S8192x128_S128x128_0_0_1_1_n_n.lhsNonContracting by decide)]
  rfl
theorem rhsA_0 (j : S128x128.Idx) (q : dot_S8192x128_S8192x128_S128x128_0_0_1_1_n_n.contr.Idx) :
    (dot_S8192x128_S8192x128_S128x128_0_0_1_1_n_n.rhsIdx j q 0).val = (q ⟨0, by decide⟩).val :=
  dot_S8192x128_S8192x128_S128x128_0_0_1_1_n_n.rhsIdx_val_of_single rfl j q
theorem rhsA_1 (j : S128x128.Idx) (q : dot_S8192x128_S8192x128_S128x128_0_0_1_1_n_n.contr.Idx) :
    (dot_S8192x128_S8192x128_S128x128_0_0_1_1_n_n.rhsIdx j q 1).val = (j 1).val := by
  unfold DotDims.rhsIdx
  rw [dif_neg (show ¬(1 : Fin S8192x128.rank) ∈ dot_S8192x128_S8192x128_S128x128_0_0_1_1_n_n.rhsBatch by decide), dif_pos (show (1 : Fin S8192x128.rank) ∈ dot_S8192x128_S8192x128_S128x128_0_0_1_1_n_n.rhsNonContracting by decide)]
  rfl

theorem lhsB_0 (j : S8192x128.Idx) (q : dot_S8192x128_S128x128_S8192x128_1_0_0_1_n_n.contr.Idx) :
    (dot_S8192x128_S128x128_S8192x128_1_0_0_1_n_n.lhsIdx j q 0).val = (j 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhsB_1 (j : S8192x128.Idx) (q : dot_S8192x128_S128x128_S8192x128_1_0_0_1_n_n.contr.Idx) :
    (dot_S8192x128_S128x128_S8192x128_1_0_0_1_n_n.lhsIdx j q 1).val = (q ⟨0, by decide⟩).val :=
  dot_S8192x128_S128x128_S8192x128_1_0_0_1_n_n.lhsIdx_val_of_single rfl j q
theorem rhsB_0 (j : S8192x128.Idx) (q : dot_S8192x128_S128x128_S8192x128_1_0_0_1_n_n.contr.Idx) :
    (dot_S8192x128_S128x128_S8192x128_1_0_0_1_n_n.rhsIdx j q 0).val = (q ⟨0, by decide⟩).val :=
  dot_S8192x128_S128x128_S8192x128_1_0_0_1_n_n.rhsIdx_val_of_single rfl j q
theorem rhsB_1 (j : S8192x128.Idx) (q : dot_S8192x128_S128x128_S8192x128_1_0_0_1_n_n.contr.Idx) :
    (dot_S8192x128_S128x128_S8192x128_1_0_0_1_n_n.rhsIdx j q 1).val = (j 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-! ## The body's payloads read at an index -/

/-- The head's matrix: the two `[8192, 128]` blocks contracted over their rows, times `2⁻¹³`. -/
theorem pay1_apply (x1 x2 : Vec Ideal S1x8192x128 .bf16) (d e : Fin 128) :
    k3_pay1 (F := Ideal) x1 x2 (ix2 d e)
      = (∑ n : Fin 8192, x1 (ix3 (0 : Fin 1) n d) * x2 (ix3 (0 : Fin 1) n e)) * inv8192 := by
  unfold k3_pay1
  refine (mulf_apply _ _ _).trans ?_
  refine congrArg₂ (· * ·) ?_ rfl
  refine (Ideal.matmul_constant_zero_apply dot_S8192x128_S8192x128_S128x128_0_0_1_1_n_n none _ _ (ix2 d e)).trans ?_
  rw [← Equiv.sum_comp (contrEquiv1 dot_S8192x128_S8192x128_S128x128_0_0_1_1_n_n 8192 rfl rfl).symm]
  refine Finset.sum_congr rfl fun k _ => ?_
  have hk := contrEquiv1_symm_val dot_S8192x128_S8192x128_S128x128_0_0_1_1_n_n 8192 rfl rfl k
  have el : dot_S8192x128_S8192x128_S128x128_0_0_1_1_n_n.lhsIdx (ix2 d e) ((contrEquiv1 dot_S8192x128_S8192x128_S128x128_0_0_1_1_n_n 8192 rfl rfl).symm k) = ix2 k d := funext fun a => Fin.ext (by
    match a with
    | ⟨0, _⟩ => exact (lhsA_0 _ _).trans hk
    | ⟨1, _⟩ => exact lhsA_1 _ _)
  have er : dot_S8192x128_S8192x128_S128x128_0_0_1_1_n_n.rhsIdx (ix2 d e) ((contrEquiv1 dot_S8192x128_S8192x128_S128x128_0_0_1_1_n_n 8192 rfl rfl).symm k) = ix2 k e := funext fun a => Fin.ext (by
    match a with
    | ⟨0, _⟩ => exact (rhsA_0 _ _).trans hk
    | ⟨1, _⟩ => exact rhsA_1 _ _)
  rw [el, er, shapeCast_1ab_ab_apply, shapeCast_1ab_ab_apply]

/-- The stored `[1, 1, 128, 128]` block is that matrix. -/
theorem pay2_apply (x1 x2 : Vec Ideal S1x8192x128 .bf16) (u v : Fin 1) (d e : Fin 128) :
    k3_pay2 (F := Ideal) x1 x2 (ix4 u v d e) = k3_pay1 (F := Ideal) x1 x2 (ix2 d e) := by
  unfold k3_pay2
  refine shapeCast_apply _ _ _ _ ?_
  have hu : u.val = 0 := by omega
  have hv : v.val = 0 := by omega
  rw [Shape.rowMajor_val_two, Shape.rowMajor_val_four]
  show d.val * 128 + e.val = ((u.val * 1 + v.val) * 128 + d.val) * 128 + e.val
  omega

/-- The stored `[1, 8192, 128]` block: the query block's rows against that matrix. -/
theorem pay3_apply (x0 x1 x2 : Vec Ideal S1x8192x128 .bf16) (u : Fin 1) (n : Fin 8192) (e : Fin 128) :
    k3_pay3 (F := Ideal) x0 x1 x2 (ix3 u n e)
      = ∑ d : Fin 128, x0 (ix3 (0 : Fin 1) n d) * k3_pay1 (F := Ideal) x1 x2 (ix2 d e) := by
  unfold k3_pay3
  refine (shapeCast_ab_1ab_apply _ _ u n e).trans ?_
  refine (Ideal.matmul_constant_zero_apply dot_S8192x128_S128x128_S8192x128_1_0_0_1_n_n none _ _ (ix2 n e)).trans ?_
  rw [← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 n e) ((contrEquiv1 dot_S8192x128_S128x128_S8192x128_1_0_0_1_n_n 128 rfl rfl).symm k) = ix2 n k := funext fun a => Fin.ext (by
    match a with
    | ⟨0, _⟩ => exact lhsB_0 _ _
    | ⟨1, _⟩ => exact (lhsB_1 _ _).trans hk)
  have er : dot_S8192x128_S128x128_S8192x128_1_0_0_1_n_n.rhsIdx (ix2 n e) ((contrEquiv1 dot_S8192x128_S128x128_S8192x128_1_0_0_1_n_n 128 rfl rfl).symm k) = ix2 k e := funext fun a => Fin.ext (by
    match a with
    | ⟨0, _⟩ => exact (rhsB_0 _ _).trans hk
    | ⟨1, _⟩ => exact rhsB_1 _ _)
  rw [el, er, shapeCast_1ab_ab_apply]
  rfl

/-! ## The two result arrays as functions of the region-entry arrays -/

/-- A head's `Kᵀ·V` over the 8192 rows of a batch, times `2⁻¹³`. -/
def gP (K W : Act) (a : Fin 4) (h : Fin 8) (d e : Fin 128) : EReal :=
  (∑ n : Fin 8192, K (ix3 a n (col h d)) * W (ix3 a n (col h e))) * inv8192

/-- A head's query row against that matrix. -/
def gA (Q K W : Act) (a : Fin 4) (n : Fin 8192) (h : Fin 8) (e : Fin 128) : EReal :=
  ∑ d : Fin 128, Q (ix3 a n (col h d)) * gP K W a h d e

/-- The array `[4, 8, 128, 128]` of all heads' matrices, at a general index. -/
def GP (K W : Act) : S4x8x128x128.Idx → EReal := fun i =>
  gP K W ⟨(i 0).val, (i 0).isLt⟩ ⟨(i 1).val, (i 1).isLt⟩ ⟨(i 2).val, (i 2).isLt⟩ ⟨(i 3).val, (i 3).isLt⟩

/-- The array `[4, 8192, 1024]` of all heads' products, at a general index: feature `f` is lane `f % 128` of head `f / 128`. -/
def GA (Q K W : Act) : S4x8192x1024.Idx → EReal := fun i =>
  gA Q K W ⟨(i 0).val, (i 0).isLt⟩ ⟨(i 1).val, (i 1).isLt⟩
    ⟨(i 2).val / 128, by have h : (i 2).val < 1024 := (i 2).isLt; omega⟩
    ⟨(i 2).val % 128, Nat.mod_lt _ (by decide)⟩

theorem GP_ix (K W : Act) (a : Fin 4) (h : Fin 8) (d e : Fin 128) : GP K W (ix4 a h d e) = gP K W a h d e := rfl

theorem GA_ix (Q K W : Act) (a : Fin 4) (n : Fin 8192) (h : Fin 8) (e : Fin 128) :
    GA Q K W (ix3 a n (col h e)) = gA Q K W a n h e := by
  have hh : h.val < 8 := h.isLt
  have he : e.val < 128 := e.isLt
  have e1 : (⟨(col h e).val / 128, by have := (col h e).isLt; omega⟩ : Fin 8) = h := Fin.ext (by
    show (col h e).val / 128 = h.val
    rw [col_val]; omega)
  have e2 : (⟨(col h e).val % 128, Nat.mod_lt _ (by decide)⟩ : Fin 128) = e := Fin.ext (by
    show (col h e).val % 128 = e.val
    rw [col_val]; omega)
  show gA Q K W a n ⟨(col h e).val / 128, _⟩ ⟨(col h e).val % 128, _⟩ = _
  rw [e1, e2]

/-! ## The printed index maps over the grid -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Every window's block at a point is the point's batch and head: the three inputs and the first result at block
    `(a, 0, h)`, the second result at `(a, h, 0, 0)`. -/
theorem idx_facts : ∀ t : Fin cfg3.N,
    win3_0.index t (0 : Fin 3) = win3_4.index t (0 : Fin 4) ∧ win3_0.index t (1 : Fin 3) = 0 ∧ win3_0.index t (2 : Fin 3) = win3_4.index t (1 : Fin 4)
    ∧ win3_1.index t (0 : Fin 3) = win3_4.index t (0 : Fin 4) ∧ win3_1.index t (1 : Fin 3) = 0 ∧ win3_1.index t (2 : Fin 3) = win3_4.index t (1 : Fin 4)
    ∧ win3_2.index t (0 : Fin 3) = win3_4.index t (0 : Fin 4) ∧ win3_2.index t (1 : Fin 3) = 0 ∧ win3_2.index t (2 : Fin 3) = win3_4.index t (1 : Fin 4)
    ∧ win3_3.index t (0 : Fin 3) = win3_4.index t (0 : Fin 4) ∧ win3_3.index t (1 : Fin 3) = 0 ∧ win3_3.index t (2 : Fin 3) = win3_4.index t (1 : Fin 4)
    ∧ win3_4.index t (2 : Fin 4) = 0 ∧ win3_4.index t (3 : Fin 4) = 0
    ∧ win3_4.index t (0 : Fin 4) ≤ 3 ∧ win3_4.index t (1 : Fin 4) ≤ 7 :=
  (by decide +kernel : ∀ t : Fin grid3.N, _)

/-- Every batch and head is some point's. -/
theorem idx_onto : ∀ (q0 : Fin 4) (q1 : Fin 8), ∃ t : Fin cfg3.N,
    win3_4.index t (0 : Fin 4) = q0.val ∧ win3_4.index t (1 : Fin 4) = q1.val :=
  (by decide +kernel : ∀ (q0 : Fin 4) (q1 : Fin 8), ∃ t : Fin grid3.N,
    win3_4.index t (0 : Fin 4) = q0.val ∧ win3_4.index t (1 : Fin 4) = q1.val)

/-! ## The input blocks read off their arrays -/

abbrev qblk (c : Dev nD) (t : Fin cfg3.N) : Vec Ideal S1x8192x128 .bf16 := iblk3 V c 0 t
abbrev kblk (c : Dev nD) (t : Fin cfg3.N) : Vec Ideal S1x8192x128 .bf16 := iblk3 V c 1 t
abbrev wblk (c : Dev nD) (t : Fin cfg3.N) : Vec Ideal S1x8192x128 .bf16 := iblk3 V c 2 t

theorem qblk_apply (c : Dev nD) (t : Fin cfg3.N) (u : Fin 1) (n : Fin 8192) (l : Fin 128) (a : Fin 4) (h : Fin 8)
    (ha : win3_4.index t (0 : Fin 4) = a.val) (hh : win3_4.index t (1 : Fin 4) = h.val) :
    qblk V c t (ix3 u n l) = rd (V c main_v12) (ix3 a n (col h l)) := by
  obtain ⟨e00, e01, e02, e10, e11, e12, e20, e21, e22, e30, e31, e32, e42, e43, b0, b1⟩ := idx_facts t
  have hu : u.val = 0 := by omega
  unfold qblk iblk3
  rw [View.read_apply]
  show V c main_v12 _ = V c main_v12 _
  congr 1
  funext x
  apply Fin.ext
  match x with
  | ⟨0, _⟩ => show win3_0.index t (0 : Fin 3) * 1 + 1 * u.val = a.val; omega
  | ⟨1, _⟩ => show win3_0.index t (1 : Fin 3) * 8192 + 1 * n.val = n.val; omega
  | ⟨2, _⟩ => show win3_0.index t (2 : Fin 3) * 128 + 1 * l.val = h.val * 128 + l.val; omega

theorem kblk_apply (c : Dev nD) (t : Fin cfg3.N) (u : Fin 1) (n : Fin 8192) (l : Fin 128) (a : Fin 4) (h : Fin 8)
    (ha : win3_4.index t (0 : Fin 4) = a.val) (hh : win3_4.index t (1 : Fin 4) = h.val) :
    kblk V c t (ix3 u n l) = rd (V c main_v13) (ix3 a n (col h l)) := by
  obtain ⟨e00, e01, e02, e10, e11, e12, e20, e21, e22, e30, e31, e32, e42, e43, b0, b1⟩ := idx_facts t
  have hu : u.val = 0 := by omega
  unfold kblk iblk3
  rw [View.read_apply]
  show V c main_v13 _ = V c main_v13 _
  congr 1
  funext x
  apply Fin.ext
  match x with
  | ⟨0, _⟩ => show win3_1.index t (0 : Fin 3) * 1 + 1 * u.val = a.val; omega
  | ⟨1, _⟩ => show win3_1.index t (1 : Fin 3) * 8192 + 1 * n.val = n.val; omega
  | ⟨2, _⟩ => show win3_1.index t (2 : Fin 3) * 128 + 1 * l.val = h.val * 128 + l.val; omega

theorem wblk_apply (c : Dev nD) (t : Fin cfg3.N) (u : Fin 1) (n : Fin 8192) (l : Fin 128) (a : Fin 4) (h : Fin 8)
    (ha : win3_4.index t (0 : Fin 4) = a.val) (hh : win3_4.index t (1 : Fin 4) = h.val) :
    wblk V c t (ix3 u n l) = rd (V c main_v14) (ix3 a n (col h l)) := by
  obtain ⟨e00, e01, e02, e10, e11, e12, e20, e21, e22, e30, e31, e32, e42, e43, b0, b1⟩ := idx_facts t
  have hu : u.val = 0 := by omega
  unfold wblk iblk3
  rw [View.read_apply]
  show V c main_v14 _ = V c main_v14 _
  congr 1
  funext x
  apply Fin.ext
  match x with
  | ⟨0, _⟩ => show win3_2.index t (0 : Fin 3) * 1 + 1 * u.val = a.val; omega
  | ⟨1, _⟩ => show win3_2.index t (1 : Fin 3) * 8192 + 1 * n.val = n.val; omega
  | ⟨2, _⟩ => show win3_2.index t (2 : Fin 3) * 128 + 1 * l.val = h.val * 128 + l.val; omega

/-! ## What each point writes back -/

/-- Point `t` writes back block `t` of `GP`. -/
theorem flushed4_eq (c : Dev nD) (t : Fin cfg3.N) :
    (dat3 (F := Ideal) V c).flushed 4 t
      = ((cfg3.win 4).blk t).view.read (Elt Ideal) (GP (V c main_v13) (V c main_v14)) := by
  show (cfg3.win 4).cut (grid3.coords t) ((dat3 (F := Ideal) V c).after 4 t) = _
  rw [after3_4]
  unfold out3_4
  rw [View.canon_unit_zero hz4]
  simp only [View.ld_unit_zero (S := S1x8192x128) hz3]
  obtain ⟨e00, e01, e02, e10, e11, e12, e20, e21, e22, e30, e31, e32, e42, e43, b0, b1⟩ := idx_facts t
  funext j
  obtain ⟨u, v, d, e, rfl⟩ : ∃ (u : Fin 1) (v : Fin 1) (d : Fin 128) (e : Fin 128), j = ix4 u v d e :=
    ⟨j 0, j 1, j 2, j 3, eq_ix4 j⟩
  have hu : u.val = 0 := by omega
  have hv : v.val = 0 := by omega
  have hemb : ((cfg3.win 4).blk t).view.emb (ix4 u v d e)
      = ix4 (⟨win3_4.index t (0 : Fin 4), by omega⟩ : Fin 4) (⟨win3_4.index t (1 : Fin 4), by omega⟩ : Fin 8) d e := by
    funext x
    apply Fin.ext
    match x with
    | ⟨0, _⟩ => show win3_4.index t (0 : Fin 4) * 1 + 1 * u.val = win3_4.index t (0 : Fin 4); omega
    | ⟨1, _⟩ => show win3_4.index t (1 : Fin 4) * 1 + 1 * v.val = win3_4.index t (1 : Fin 4); omega
    | ⟨2, _⟩ => show win3_4.index t (2 : Fin 4) * 128 + 1 * d.val = d.val; omega
    | ⟨3, _⟩ => show win3_4.index t (3 : Fin 4) * 128 + 1 * e.val = e.val; omega
  show k3_pay2 (F := Ideal) (kblk V c t) (wblk V c t) (ix4 u v d e)
    = GP (V c main_v13) (V c main_v14) (((cfg3.win 4).blk t).view.emb (ix4 u v d e))
  refine Eq.trans ?_ (congrArg (GP (V c main_v13) (V c main_v14)) hemb).symm
  refine (pay2_apply (kblk V c t) (wblk V c t) u v d e).trans ?_
  refine (pay1_apply (kblk V c t) (wblk V c t) d e).trans ?_
  refine Eq.trans ?_ (GP_ix (V c main_v13) (V c main_v14) _ _ d e).symm
  unfold gP
  refine congrArg (· * inv8192) (Finset.sum_congr rfl fun n _ => ?_)
  exact congrArg₂ (· * ·) (kblk_apply V c t 0 n d _ _ rfl rfl) (wblk_apply V c t 0 n e _ _ rfl rfl)

/-- Point `t` writes back block `t` of `GA`. -/
theorem flushed3_eq (c : Dev nD) (t : Fin cfg3.N) :
    (dat3 (F := Ideal) V c).flushed 3 t
      = ((cfg3.win 3).blk t).view.read (Elt Ideal) (GA (V c main_v12) (V c main_v13) (V c main_v14)) := by
  show (cfg3.win 3).cut (grid3.coords t) ((dat3 (F := Ideal) V c).after 3 t) = _
  rw [after3_3]
  unfold out3_3
  rw [View.canon_unit_zero hz3]
  simp only [View.ld_unit_zero (S := S1x8192x128) hz3]
  obtain ⟨e00, e01, e02, e10, e11, e12, e20, e21, e22, e30, e31, e32, e42, e43, b0, b1⟩ := idx_facts t
  funext j
  obtain ⟨u, n, e, rfl⟩ : ∃ (u : Fin 1) (n : Fin 8192) (e : Fin 128), j = ix3 u n e :=
    ⟨j 0, j 1, j 2, eq_ix3 j⟩
  have hu : u.val = 0 := by omega
  have hemb : ((cfg3.win 3).blk t).view.emb (ix3 u n e)
      = ix3 (⟨win3_4.index t (0 : Fin 4), by omega⟩ : Fin 4) n
          (col (⟨win3_4.index t (1 : Fin 4), by omega⟩ : Fin 8) e) := by
    funext x
    apply Fin.ext
    match x with
    | ⟨0, _⟩ => show win3_3.index t (0 : Fin 3) * 1 + 1 * u.val = win3_4.index t (0 : Fin 4); omega
    | ⟨1, _⟩ => show win3_3.index t (1 : Fin 3) * 8192 + 1 * n.val = n.val; omega
    | ⟨2, _⟩ => show win3_3.index t (2 : Fin 3) * 128 + 1 * e.val = win3_4.index t (1 : Fin 4) * 128 + e.val; omega
  show k3_pay3 (F := Ideal) (qblk V c t) (kblk V c t) (wblk V c t) (ix3 u n e)
    = GA (V c main_v12) (V c main_v13) (V c main_v14) (((cfg3.win 3).blk t).view.emb (ix3 u n e))
  refine Eq.trans ?_ (congrArg (GA (V c main_v12) (V c main_v13) (V c main_v14)) hemb).symm
  refine (pay3_apply (qblk V c t) (kblk V c t) (wblk V c t) u n e).trans ?_
  refine Eq.trans ?_ (GA_ix (V c main_v12) (V c main_v13) (V c main_v14) _ n _ e).symm
  unfold gA
  refine Finset.sum_congr rfl fun d _ => ?_
  refine congrArg₂ (· * ·) (qblk_apply V c t 0 n d _ _ rfl rfl) ?_
  refine (pay1_apply (kblk V c t) (wblk V c t) d e).trans ?_
  unfold gP
  refine congrArg (· * inv8192) (Finset.sum_congr rfl fun n' _ => ?_)
  exact congrArg₂ (· * ·) (kblk_apply V c t 0 n' d _ _ rfl rfl) (wblk_apply V c t 0 n' e _ _ rfl rfl)

/-! ## The blocks cover the arrays -/

theorem mem_blk4 (t : Fin cfg3.N) (i : S4x8x128x128.Idx) :
    i ∈ ((cfg3.win 4).blk t).view.set ↔ ∀ a : Fin 4, win3_4.index t a * S1x1x128x128.size a ≤ (i a).val ∧ (i a).val < win3_4.index t a * S1x1x128x128.size a + S1x1x128x128.size a := by
  show i ∈ ((View.whole main_v15_1).slice (win3_4.rect t)).set ↔ _
  rw [View.set_slice_whole, Rect.mem_set_unit]
  exact Iff.rfl

theorem mem_blk3 (t : Fin cfg3.N) (i : S4x8192x1024.Idx) :
    i ∈ ((cfg3.win 3).blk t).view.set ↔ ∀ a : Fin 3, win3_3.index t a * S1x8192x128.size a ≤ (i a).val ∧ (i a).val < win3_3.index t a * S1x8192x128.size a + S1x8192x128.size a := by
  show i ∈ ((View.whole main_v15_0).slice (win3_3.rect t)).set ↔ _
  rw [View.set_slice_whole, Rect.mem_set_unit]
  exact Iff.rfl

theorem cover4 (i : S4x8x128x128.Idx) :
    ∃ t : Fin cfg3.N, (cfg3.win 4).flush t = true ∧ i ∈ ((cfg3.win 4).blk t).view.set := by
  have hi0 : (i 0).val < 4 := (i 0).isLt
  have hi1 : (i 1).val < 8 := (i 1).isLt
  have hi2 : (i 2).val < 128 := (i 2).isLt
  have hi3 : (i 3).val < 128 := (i 3).isLt
  obtain ⟨t, q0, q1⟩ := idx_onto ⟨(i 0).val, hi0⟩ ⟨(i 1).val, hi1⟩
  obtain ⟨e00, e01, e02, e10, e11, e12, e20, e21, e22, e30, e31, e32, e42, e43, b0, b1⟩ := idx_facts t
  have q0' : win3_4.index t (0 : Fin 4) = (i 0).val := q0
  have q1' : win3_4.index t (1 : Fin 4) = (i 1).val := q1
  refine ⟨t, flush3_4 t, ?_⟩
  rw [mem_blk4]
  intro a
  match a with
  | ⟨0, _⟩ => show win3_4.index t (0 : Fin 4) * 1 ≤ (i 0).val ∧ (i 0).val < win3_4.index t (0 : Fin 4) * 1 + 1; omega
  | ⟨1, _⟩ => show win3_4.index t (1 : Fin 4) * 1 ≤ (i 1).val ∧ (i 1).val < win3_4.index t (1 : Fin 4) * 1 + 1; omega
  | ⟨2, _⟩ => show win3_4.index t (2 : Fin 4) * 128 ≤ (i 2).val ∧ (i 2).val < win3_4.index t (2 : Fin 4) * 128 + 128; omega
  | ⟨3, _⟩ => show win3_4.index t (3 : Fin 4) * 128 ≤ (i 3).val ∧ (i 3).val < win3_4.index t (3 : Fin 4) * 128 + 128; omega

theorem cover3 (i : S4x8192x1024.Idx) :
    ∃ t : Fin cfg3.N, (cfg3.win 3).flush t = true ∧ i ∈ ((cfg3.win 3).blk t).view.set := by
  have hi0 : (i 0).val < 4 := (i 0).isLt
  have hi1 : (i 1).val < 8192 := (i 1).isLt
  have hi2 : (i 2).val < 1024 := (i 2).isLt
  obtain ⟨t, q0, q1⟩ := idx_onto ⟨(i 0).val, hi0⟩ ⟨(i 2).val / 128, by omega⟩
  obtain ⟨e00, e01, e02, e10, e11, e12, e20, e21, e22, e30, e31, e32, e42, e43, b0, b1⟩ := idx_facts t
  have q0' : win3_4.index t (0 : Fin 4) = (i 0).val := q0
  have q1' : win3_4.index t (1 : Fin 4) = (i 2).val / 128 := q1
  refine ⟨t, flush3_3 t, ?_⟩
  rw [mem_blk3]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 8192 ≤ (i 1).val ∧ (i 1).val < win3_3.index t (1 : Fin 3) * 8192 + 8192; omega
  | ⟨2, _⟩ => show win3_3.index t (2 : Fin 3) * 128 ≤ (i 2).val ∧ (i 2).val < win3_3.index t (2 : Fin 3) * 128 + 128; omega

/-! ## The arrays after the region -/

theorem arr4_eq (c : Dev nD) :
    (dat3 (F := Ideal) V c).arrAt 4 cfg3.N = GP (V c main_v13) (V c main_v14) :=
  (dat3 (F := Ideal) V c).arrAt_eq_of_cover 4 (GP (V c main_v13) (V c main_v14)) (fun t _ => flushed4_eq V c t) cover4

theorem arr3_eq (c : Dev nD) :
    (dat3 (F := Ideal) V c).arrAt 3 cfg3.N = GA (V c main_v12) (V c main_v13) (V c main_v14) :=
  (dat3 (F := Ideal) V c).arrAt_eq_of_cover 3 (GA (V c main_v12) (V c main_v13) (V c main_v14)) (fun t _ => flushed3_eq V c t) cover3

/-- Region 3, second result `[4, 8, 128, 128]`: a head's `Kᵀ·V` over the 8192 rows, scaled by `2⁻¹³`. -/
theorem final3p (c : Dev nD) (a : Fin 4) (h : Fin 8) (d e : Fin 128) :
    rd ((dat3 (F := Ideal) V c).arrAt 4 cfg3.N) (ix4 a h d e)
      = (∑ n : Fin 8192, rd (V c main_v13) (ix3 a n (col h d)) * rd (V c main_v14) (ix3 a n (col h e)))
        * inv8192 := by
  refine (congrFun (arr4_eq V c) (ix4 a h d e)).trans ?_
  exact GP_ix (V c main_v13) (V c main_v14) a h d e

/-- Region 3, first result `[4, 8192, 1024]`: a head's query row against that head's scaled matrix. -/
theorem final3a (c : Dev nD) (a : Fin 4) (n : Fin 8192) (h : Fin 8) (e : Fin 128) :
    rd ((dat3 (F := Ideal) V c).arrAt 3 cfg3.N) (ix3 a n (col h e))
      = ∑ d : Fin 128, rd (V c main_v12) (ix3 a n (col h d))
          * ((∑ n' : Fin 8192, rd (V c main_v13) (ix3 a n' (col h d)) * rd (V c main_v14) (ix3 a n' (col h e)))
             * inv8192) := by
  refine (congrFun (arr3_eq V c) (ix3 a n (col h e))).trans ?_
  exact GA_ix (V c main_v12) (V c main_v13) (V c main_v14) a n h e

end Cert.KernelIdeal.Region3

end
-- ==== Proof.Chain.lean ====
import proofs.«123169_j44882408243764_1_alg».proof.Proof.Gen.KernelIdeal.Frame
import proofs.«123169_j44882408243764_1_alg».proof.Proof.Spec
import proofs.«123169_j44882408243764_1_alg».proof.Proof.Region0
import proofs.«123169_j44882408243764_1_alg».proof.Proof.Region1
import proofs.«123169_j44882408243764_1_alg».proof.Proof.Region2
import proofs.«123169_j44882408243764_1_alg».proof.Proof.Region3
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.Spec

variable (m : (ℓ : Loc nD τ sig) → Buf (Elt Ideal) ℓ) (ρ : Dev nD → PrngReg)

/-! ## A buffer a stretch of host operations does not write is kept -/

theorem host0_kept (c : Dev nD) (b : Ref sig .tc)
    (hb : b ≠ main_v0 ∧ b ≠ main_v1 ∧ b ≠ main_v2 ∧ b ≠ main_v3 ∧ b ≠ main_v4 ∧ b ≠ main_v5 ∧ b ≠ main_v6) :
    W1 m ρ c (Proc.devRef .tc b) = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2.1, StableHlo.devRef_ne_of_ne hb.2.2.2.2.2.1,
      StableHlo.devRef_ne_of_ne hb.2.2.2.2.2.2⟩))

theorem host1_kept (c : Dev nD) (b : Ref sig .tc) (hb : b ≠ main_v8) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

theorem host2_kept (c : Dev nD) (b : Ref sig .tc) (hb : b ≠ main_v10) :
    W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-! ## What a stretch of host operations writes, over any contents at its start -/

theorem host0_v0 (Wv : Valuation τ sig (Elt Ideal)) :
    StableHlo.after hostOps0 Wv (Proc.devRef .tc main_v0)
      = transpose S1024x1024 [1, 0] (Wv (Proc.devRef .tc main_arg3)) transposes_S1024x1024_S1024x1024_1_0 := by
  after_results

theorem host0_v1 (Wv : Valuation τ sig (Elt Ideal)) :
    StableHlo.after hostOps0 Wv (Proc.devRef .tc main_v1)
      = transpose S1024x1024 [1, 0] (Wv (Proc.devRef .tc main_arg5)) transposes_S1024x1024_S1024x1024_1_0 := by
  after_results

theorem host0_v2 (Wv : Valuation τ sig (Elt Ideal)) :
    StableHlo.after hostOps0 Wv (Proc.devRef .tc main_v2)
      = transpose S1024x1024 [1, 0] (Wv (Proc.devRef .tc main_arg7)) transposes_S1024x1024_S1024x1024_1_0 := by
  after_results

theorem host0_v3 (Wv : Valuation τ sig (Elt Ideal)) :
    StableHlo.after hostOps0 Wv (Proc.devRef .tc main_v3)
      = shapeCast S1x1024 (Wv (Proc.devRef .tc main_arg4)) shapeCasts_S1024_S1x1024 := by
  after_results; rfl

theorem host0_v4 (Wv : Valuation τ sig (Elt Ideal)) :
    StableHlo.after hostOps0 Wv (Proc.devRef .tc main_v4)
      = shapeCast S1x1024 (Wv (Proc.devRef .tc main_arg6)) shapeCasts_S1024_S1x1024 := by
  after_results; rfl

theorem host0_v5 (Wv : Valuation τ sig (Elt Ideal)) :
    StableHlo.after hostOps0 Wv (Proc.devRef .tc main_v5)
      = shapeCast S1x1024 (Wv (Proc.devRef .tc main_arg8)) shapeCasts_S1024_S1x1024 := by
  after_results; rfl

theorem host0_v6 (Wv : Valuation τ sig (Elt Ideal)) :
    StableHlo.after hostOps0 Wv (Proc.devRef .tc main_v6)
      = shapeCast S32768x1024 (Wv (Proc.devRef .tc main_arg0)) shapeCasts_S4x8192x1024_S32768x1024 := by
  after_results; rfl

theorem host1_v8 (Wv : Valuation τ sig (Elt Ideal)) :
    StableHlo.after hostOps1 Wv (Proc.devRef .tc main_v8)
      = shapeCast S32768x1024 (Wv (Proc.devRef .tc main_arg1)) shapeCasts_S4x8192x1024_S32768x1024 := by
  after_results; rfl

theorem host2_v10 (Wv : Valuation τ sig (Elt Ideal)) :
    StableHlo.after hostOps2 Wv (Proc.devRef .tc main_v10)
      = shapeCast S32768x1024 (Wv (Proc.devRef .tc main_arg2)) shapeCasts_S4x8192x1024_S32768x1024 := by
  after_results; rfl

theorem host3_v12 (Wv : Valuation τ sig (Elt Ideal)) :
    StableHlo.after hostOps3 Wv (Proc.devRef .tc main_v12)
      = shapeCast S4x8192x1024 (Wv (Proc.devRef .tc main_v7)) shapeCasts_S32768x1024_S4x8192x1024 := by
  after_results; rfl

theorem host3_v13 (Wv : Valuation τ sig (Elt Ideal)) :
    StableHlo.after hostOps3 Wv (Proc.devRef .tc main_v13)
      = shapeCast S4x8192x1024 (Wv (Proc.devRef .tc main_v9)) shapeCasts_S32768x1024_S4x8192x1024 := by
  after_results; rfl

theorem host3_v14 (Wv : Valuation τ sig (Elt Ideal)) :
    StableHlo.after hostOps3 Wv (Proc.devRef .tc main_v14)
      = shapeCast S4x8192x1024 (Wv (Proc.devRef .tc main_v11)) shapeCasts_S32768x1024_S4x8192x1024 := by
  after_results; rfl

/-! ## A reshape or a transpose read at coordinates -/

/-- Row `(a, n)` of the `[4, 8192, 1024]` view of a `[32768, 1024]` array is its row `a·8192 + n`. -/
theorem unflat_apply (x : S32768x1024.Idx → EReal) (hs : S32768x1024.ShapeCasts S4x8192x1024)
    (a : Fin 4) (n : Fin 8192) (f : Fin 1024) :
    shapeCast S4x8192x1024 x hs (ix3 a n f) = x (ix2 (row a n) f) :=
  shapeCast_apply x hs (ix3 a n f) (ix2 (row a n) f) (by
    rw [Shape.rowMajor_val_two, Shape.rowMajor_val_three]; rfl)

/-- Row `a·8192 + n` of the `[32768, 1024]` view of a `[4, 8192, 1024]` array is its row `(a, n)`. -/
theorem flat_apply (x : S4x8192x1024.Idx → EReal) (hs : S4x8192x1024.ShapeCasts S32768x1024)
    (a : Fin 4) (n : Fin 8192) (f : Fin 1024) :
    shapeCast S32768x1024 x hs (ix2 (row a n) f) = x (ix3 a n f) :=
  shapeCast_apply x hs (ix2 (row a n) f) (ix3 a n f) (by
    rw [Shape.rowMajor_val_two, Shape.rowMajor_val_three]; rfl)

/-- The `[1, 1024]` view of a `[1024]` array at `(0, e)` is its entry `e`. -/
theorem bias_apply (x : S1024.Idx → EReal) (hs : S1024.ShapeCasts S1x1024) (e : Fin 1024) :
    shapeCast S1x1024 x hs (ix2 (0 : Fin 1) e) = x (ix1 e) :=
  shapeCast_apply x hs (ix2 (0 : Fin 1) e) (ix1 e) (by
    rw [Shape.rowMajor_val_two, Shape.rowMajor_val_one]; show e.val = 0 * 1024 + e.val; omega)

/-- The transpose of a square matrix at `(k, e)` is the matrix at `(e, k)`. -/
theorem transpose_at (x : S1024x1024.Idx → EReal) (ht : S1024x1024.Transposes [1, 0] S1024x1024) (k e : Fin 1024) :
    transpose S1024x1024 [1, 0] x ht (ix2 k e) = x (ix2 e k) :=
  transpose_apply [1, 0] x ht (ix2 k e) (ix2 e k) (fun b => match b with
    | ⟨0, _⟩ => rfl
    | ⟨1, _⟩ => rfl)

/-! ## The regions' operands, read back to the launch memory -/

/-- Region 0's activations: the flattened first argument. -/
theorem x0_at (c : Dev nD) (a : Fin 4) (n : Fin 8192) (k : Fin 1024) :
    rd (V1 m ρ c main_v6) (ix2 (row a n) k) = rd (m ((c : Thread nD τ).loc main_arg0)) (ix3 a n k) := by
  have e : V1 m ρ c main_v6 = shapeCast S32768x1024 (m ((c : Thread nD τ).loc main_arg0)) shapeCasts_S4x8192x1024_S32768x1024 :=
    host0_v6 (W0 m ρ c)
  rw [e]; exact flat_apply _ _ a n k

/-- Region 0's weights: the transposed fourth argument. -/
theorem w0_at (c : Dev nD) (k f : Fin 1024) :
    rd (V1 m ρ c main_v0) (ix2 k f) = rd (m ((c : Thread nD τ).loc main_arg3)) (ix2 f k) := by
  have e : V1 m ρ c main_v0 = transpose S1024x1024 [1, 0] (m ((c : Thread nD τ).loc main_arg3)) transposes_S1024x1024_S1024x1024_1_0 :=
    host0_v0 (W0 m ρ c)
  rw [e]; exact transpose_at _ _ k f

/-- Region 0's bias: the fifth argument as a row. -/
theorem b0_at (c : Dev nD) (f : Fin 1024) :
    rd (V1 m ρ c main_v3) (ix2 (0 : Fin 1) f) = rd (m ((c : Thread nD τ).loc main_arg4)) (ix1 f) := by
  have e : V1 m ρ c main_v3 = shapeCast S1x1024 (m ((c : Thread nD τ).loc main_arg4)) shapeCasts_S1024_S1x1024 :=
    host0_v3 (W0 m ρ c)
  rw [e]; exact bias_apply _ _ f

/-- Region 0's result at row `(a, n)` and lane `l` of head `h`: the query head. -/
theorem q_row (c : Dev nD) (a : Fin 4) (n : Fin 8192) (h : Fin 8) (l : Fin 128) :
    rd (W2 m ρ c (Proc.devRef .tc main_v7)) (ix2 (row a n) (col h l))
      = qH (m ((c : Thread nD τ).loc main_arg0)) (m ((c : Thread nD τ).loc main_arg3)) (m ((c : Thread nD τ).loc main_arg4)) a n h l := by
  have e : W2 m ρ c (Proc.devRef .tc main_v7) = (dat0 (V1 m ρ) c).arrAt 3 cfg0.N := W2_arr m ρ c 3
  rw [e, Region0.final0, b0_at]
  simp only [x0_at m ρ c a n, w0_at m ρ c]
  rfl

/-! ## Buffers kept from the first stretch to the later regions' entries -/

theorem W3_W1 (c : Dev nD) (b : Ref sig .tc) (h1 : b ≠ main_v8) (hr0 : ∀ w, Pipeline.arrRef spec0 w ≠ b) :
    W3 m ρ c (Proc.devRef .tc b) = W1 m ρ c (Proc.devRef .tc b) :=
  (host1_kept m ρ c b h1).trans (W2_of_ne m ρ c b hr0)

theorem W5_W1 (c : Dev nD) (b : Ref sig .tc) (h2 : b ≠ main_v10) (hr1 : ∀ w, Pipeline.arrRef spec1 w ≠ b)
    (h1 : b ≠ main_v8) (hr0 : ∀ w, Pipeline.arrRef spec0 w ≠ b) :
    W5 m ρ c (Proc.devRef .tc b) = W1 m ρ c (Proc.devRef .tc b) :=
  (host2_kept m ρ c b h2).trans ((W4_of_ne m ρ c b hr1).trans (W3_W1 m ρ c b h1 hr0))

/-- Region 1's activations: the flattened second argument. -/
theorem x1_at (c : Dev nD) (a : Fin 4) (n : Fin 8192) (k : Fin 1024) :
    rd (V3 m ρ c main_v8) (ix2 (row a n) k) = rd (m ((c : Thread nD τ).loc main_arg1)) (ix3 a n k) := by
  have e : V3 m ρ c main_v8 = shapeCast S32768x1024 (W2 m ρ c (Proc.devRef .tc main_arg1)) shapeCasts_S4x8192x1024_S32768x1024 :=
    host1_v8 (W2 m ρ c)
  have e' : W2 m ρ c (Proc.devRef .tc main_arg1) = m ((c : Thread nD τ).loc main_arg1) :=
    (W2_of_ne m ρ c main_arg1 (by decide)).trans (host0_kept m ρ c main_arg1 (by decide))
  rw [e, e']; exact flat_apply _ _ a n k

/-- Region 1's weights: the transposed sixth argument. -/
theorem w1_at (c : Dev nD) (k f : Fin 1024) :
    rd (V3 m ρ c main_v1) (ix2 k f) = rd (m ((c : Thread nD τ).loc main_arg5)) (ix2 f k) := by
  have e : V3 m ρ c main_v1 = transpose S1024x1024 [1, 0] (m ((c : Thread nD τ).loc main_arg5)) transposes_S1024x1024_S1024x1024_1_0 :=
    (W3_W1 m ρ c main_v1 (by decide) (by decide)).trans (host0_v1 (W0 m ρ c))
  rw [e]; exact transpose_at _ _ k f

/-- Region 1's bias: the seventh argument as a row. -/
theorem b1_at (c : Dev nD) (f : Fin 1024) :
    rd (V3 m ρ c main_v4) (ix2 (0 : Fin 1) f) = rd (m ((c : Thread nD τ).loc main_arg6)) (ix1 f) := by
  have e : V3 m ρ c main_v4 = shapeCast S1x1024 (m ((c : Thread nD τ).loc main_arg6)) shapeCasts_S1024_S1x1024 :=
    (W3_W1 m ρ c main_v4 (by decide) (by decide)).trans (host0_v4 (W0 m ρ c))
  rw [e]; exact bias_apply _ _ f

theorem g1_eq (c : Dev nD) : V3 m ρ c main_arg9 = m ((c : Thread nD τ).loc main_arg9) :=
  (W3_W1 m ρ c main_arg9 (by decide) (by decide)).trans (host0_kept m ρ c main_arg9 (by decide))

theorem bt1_eq (c : Dev nD) : V3 m ρ c main_arg10 = m ((c : Thread nD τ).loc main_arg10) :=
  (W3_W1 m ρ c main_arg10 (by decide) (by decide)).trans (host0_kept m ρ c main_arg10 (by decide))

/-- Region 1's result at row `(a, n)` and lane `l` of head `h`: the normalised key head. -/
theorem k_row (c : Dev nD) (a : Fin 4) (n : Fin 8192) (h : Fin 8) (l : Fin 128) :
    rd (W4 m ρ c (Proc.devRef .tc main_v9)) (ix2 (row a n) (col h l))
      = nH (m ((c : Thread nD τ).loc main_arg1)) (m ((c : Thread nD τ).loc main_arg5)) (m ((c : Thread nD τ).loc main_arg6)) (m ((c : Thread nD τ).loc main_arg9)) (m ((c : Thread nD τ).loc main_arg10)) a n h l := by
  have e : W4 m ρ c (Proc.devRef .tc main_v9) = (dat1 (V3 m ρ) c).arrAt 5 cfg1.N := W4_arr m ρ c 5
  rw [e, Region1.final1, g1_eq m ρ c, bt1_eq m ρ c]
  simp only [x1_at m ρ c a n, w1_at m ρ c, b1_at m ρ c]
  rfl

/-- Region 2's activations: the flattened third argument. -/
theorem x2_at (c : Dev nD) (a : Fin 4) (n : Fin 8192) (k : Fin 1024) :
    rd (V5 m ρ c main_v10) (ix2 (row a n) k) = rd (m ((c : Thread nD τ).loc main_arg2)) (ix3 a n k) := by
  have e : V5 m ρ c main_v10 = shapeCast S32768x1024 (W4 m ρ c (Proc.devRef .tc main_arg2)) shapeCasts_S4x8192x1024_S32768x1024 :=
    host2_v10 (W4 m ρ c)
  have e' : W4 m ρ c (Proc.devRef .tc main_arg2) = m ((c : Thread nD τ).loc main_arg2) :=
    (W4_of_ne m ρ c main_arg2 (by decide)).trans
      ((W3_W1 m ρ c main_arg2 (by decide) (by decide)).trans (host0_kept m ρ c main_arg2 (by decide)))
  rw [e, e']; exact flat_apply _ _ a n k

/-- Region 2's weights: the transposed eighth argument. -/
theorem w2_at (c : Dev nD) (k f : Fin 1024) :
    rd (V5 m ρ c main_v2) (ix2 k f) = rd (m ((c : Thread nD τ).loc main_arg7)) (ix2 f k) := by
  have e : V5 m ρ c main_v2 = transpose S1024x1024 [1, 0] (m ((c : Thread nD τ).loc main_arg7)) transposes_S1024x1024_S1024x1024_1_0 :=
    (W5_W1 m ρ c main_v2 (by decide) (by decide) (by decide) (by decide)).trans (host0_v2 (W0 m ρ c))
  rw [e]; exact transpose_at _ _ k f

/-- Region 2's bias: the ninth argument as a row. -/
theorem b2_at (c : Dev nD) (f : Fin 1024) :
    rd (V5 m ρ c main_v5) (ix2 (0 : Fin 1) f) = rd (m ((c : Thread nD τ).loc main_arg8)) (ix1 f) := by
  have e : V5 m ρ c main_v5 = shapeCast S1x1024 (m ((c : Thread nD τ).loc main_arg8)) shapeCasts_S1024_S1x1024 :=
    (W5_W1 m ρ c main_v5 (by decide) (by decide) (by decide) (by decide)).trans (host0_v5 (W0 m ρ c))
  rw [e]; exact bias_apply _ _ f

theorem g2_eq (c : Dev nD) : V5 m ρ c main_arg11 = m ((c : Thread nD τ).loc main_arg11) :=
  (W5_W1 m ρ c main_arg11 (by decide) (by decide) (by decide) (by decide)).trans (host0_kept m ρ c main_arg11 (by decide))

theorem bt2_eq (c : Dev nD) : V5 m ρ c main_arg12 = m ((c : Thread nD τ).loc main_arg12) :=
  (W5_W1 m ρ c main_arg12 (by decide) (by decide) (by decide) (by decide)).trans (host0_kept m ρ c main_arg12 (by decide))

/-- Region 2's result at row `(a, n)` and lane `l` of head `h`: the normalised value head. -/
theorem v_row (c : Dev nD) (a : Fin 4) (n : Fin 8192) (h : Fin 8) (l : Fin 128) :
    rd (W6 m ρ c (Proc.devRef .tc main_v11)) (ix2 (row a n) (col h l))
      = nH (m ((c : Thread nD τ).loc main_arg2)) (m ((c : Thread nD τ).loc main_arg7)) (m ((c : Thread nD τ).loc main_arg8)) (m ((c : Thread nD τ).loc main_arg11)) (m ((c : Thread nD τ).loc main_arg12)) a n h l := by
  have e : W6 m ρ c (Proc.devRef .tc main_v11) = (dat2 (V5 m ρ) c).arrAt 5 cfg2.N := W6_arr m ρ c 5
  rw [e, Region2.final2, g2_eq m ρ c, bt2_eq m ρ c]
  simp only [x2_at m ρ c a n, w2_at m ρ c, b2_at m ρ c]
  rfl

/-! ## The last region's operands: the three earlier results, unflattened -/

theorem q_at (c : Dev nD) (a : Fin 4) (n : Fin 8192) (h : Fin 8) (l : Fin 128) :
    rd (V7 m ρ c main_v12) (ix3 a n (col h l))
      = qH (m ((c : Thread nD τ).loc main_arg0)) (m ((c : Thread nD τ).loc main_arg3)) (m ((c : Thread nD τ).loc main_arg4)) a n h l := by
  have e : V7 m ρ c main_v12 = shapeCast S4x8192x1024 (W6 m ρ c (Proc.devRef .tc main_v7)) shapeCasts_S32768x1024_S4x8192x1024 :=
    host3_v12 (W6 m ρ c)
  have e' : W6 m ρ c (Proc.devRef .tc main_v7) = W2 m ρ c (Proc.devRef .tc main_v7) :=
    (W6_of_ne m ρ c main_v7 (by decide)).trans ((host2_kept m ρ c main_v7 (by decide)).trans
      ((W4_of_ne m ρ c main_v7 (by decide)).trans (host1_kept m ρ c main_v7 (by decide))))
  rw [e, e']
  exact (unflat_apply _ _ a n (col h l)).trans (q_row m ρ c a n h l)

theorem k_at (c : Dev nD) (a : Fin 4) (n : Fin 8192) (h : Fin 8) (l : Fin 128) :
    rd (V7 m ρ c main_v13) (ix3 a n (col h l))
      = nH (m ((c : Thread nD τ).loc main_arg1)) (m ((c : Thread nD τ).loc main_arg5)) (m ((c : Thread nD τ).loc main_arg6)) (m ((c : Thread nD τ).loc main_arg9)) (m ((c : Thread nD τ).loc main_arg10)) a n h l := by
  have e : V7 m ρ c main_v13 = shapeCast S4x8192x1024 (W6 m ρ c (Proc.devRef .tc main_v9)) shapeCasts_S32768x1024_S4x8192x1024 :=
    host3_v13 (W6 m ρ c)
  have e' : W6 m ρ c (Proc.devRef .tc main_v9) = W4 m ρ c (Proc.devRef .tc main_v9) :=
    (W6_of_ne m ρ c main_v9 (by decide)).trans (host2_kept m ρ c main_v9 (by decide))
  rw [e, e']
  exact (unflat_apply _ _ a n (col h l)).trans (k_row m ρ c a n h l)

theorem v_at (c : Dev nD) (a : Fin 4) (n : Fin 8192) (h : Fin 8) (l : Fin 128) :
    rd (V7 m ρ c main_v14) (ix3 a n (col h l))
      = nH (m ((c : Thread nD τ).loc main_arg2)) (m ((c : Thread nD τ).loc main_arg7)) (m ((c : Thread nD τ).loc main_arg8)) (m ((c : Thread nD τ).loc main_arg11)) (m ((c : Thread nD τ).loc main_arg12)) a n h l := by
  have e : V7 m ρ c main_v14 = shapeCast S4x8192x1024 (W6 m ρ c (Proc.devRef .tc main_v11)) shapeCasts_S32768x1024_S4x8192x1024 :=
    host3_v14 (W6 m ρ c)
  rw [e]
  exact (unflat_apply _ _ a n (col h l)).trans (v_row m ρ c a n h l)

/-! ## The two results -/
/-- After the whole program the second result array holds each head's `Kᵀ·V / 8192` of the normalised key and value
    heads of the arguments. -/
theorem out_p (c : Dev nD) (a : Fin 4) (h : Fin 8) (d e : Fin 128) :
    rd (W8 (F := Ideal) m ρ c (Proc.devRef .tc main_v15_1)) (ix4 a h d e)
      = pAttn (nH (m ((c : Thread nD τ).loc main_arg1)) (m ((c : Thread nD τ).loc main_arg5)) (m ((c : Thread nD τ).loc main_arg6)) (m ((c : Thread nD τ).loc main_arg9)) (m ((c : Thread nD τ).loc main_arg10))) (nH (m ((c : Thread nD τ).loc main_arg2)) (m ((c : Thread nD τ).loc main_arg7)) (m ((c : Thread nD τ).loc main_arg8)) (m ((c : Thread nD τ).loc main_arg11)) (m ((c : Thread nD τ).loc main_arg12))) a h d e := by
  have e8 : W8 m ρ c (Proc.devRef .tc main_v15_1) = (dat3 (V7 m ρ) c).arrAt 4 cfg3.N := W8_arr m ρ c 4
  rw [e8, Region3.final3p]
  simp only [k_at m ρ c a, v_at m ρ c a]
  rw [scale_eq]
  rfl

/-- After the whole program the first result array holds, at row `(a, n)` and lane `e` of head `h`, the query head's
    row against that head's matrix. -/
theorem out_a (c : Dev nD) (a : Fin 4) (n : Fin 8192) (h : Fin 8) (e : Fin 128) :
    rd (W8 (F := Ideal) m ρ c (Proc.devRef .tc main_v15_0)) (ix3 a n (col h e))
      = att (qH (m ((c : Thread nD τ).loc main_arg0)) (m ((c : Thread nD τ).loc main_arg3)) (m ((c : Thread nD τ).loc main_arg4))) (pAttn (nH (m ((c : Thread nD τ).loc main_arg1)) (m ((c : Thread nD τ).loc main_arg5)) (m ((c : Thread nD τ).loc main_arg6)) (m ((c : Thread nD τ).loc main_arg9)) (m ((c : Thread nD τ).loc main_arg10))) (nH (m ((c : Thread nD τ).loc main_arg2)) (m ((c : Thread nD τ).loc main_arg7)) (m ((c : Thread nD τ).loc main_arg8)) (m ((c : Thread nD τ).loc main_arg11)) (m ((c : Thread nD τ).loc main_arg12)))) a n h e := by
  have e8 : W8 m ρ c (Proc.devRef .tc main_v15_0) = (dat3 (V7 m ρ) c).arrAt 3 cfg3.N := W8_arr m ρ c 3
  rw [e8, Region3.final3a]
  simp only [q_at m ρ c a n, k_at m ρ c a, v_at m ρ c a]
  simp only [scale_eq]
  rfl

end Cert.KernelIdeal.Chain

end
-- ==== Proof.RefHeads.lean ====
import proofs.«123169_j44882408243764_1_alg».proof.Proof.Gen.ReferenceIdeal.Run
import proofs.«123169_j44882408243764_1_alg».proof.Proof.Gen.ReferenceIdeal.Read
import proofs.«123169_j44882408243764_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefHeads

open Cert.ReferenceIdeal Cert.ReferenceIdeal.Read Cert.Spec

/-! ## Indices: the reshape of a transposed head index, and the contraction's operand indices -/

/-- Lane `l` of head `h` of row `(a, n)`, read through the transpose `[0,2,1,3]` and the reshape
    `[4,8192,1024] → [4,8192,8,128]`, is feature `h·128 + l` of row `(a, n)`. -/
theorem idx_heads (a : Fin 4) (h : Fin 8) (n : Fin 8192) (l : Fin 128) :
    idx_main_v4 (idx_main_v5 (ix4 a h n l)) = ix3 a n (col h l) :=
  funext fun d => Fin.ext (by
    have ha := a.isLt; have hh := h.isLt; have hn := n.isLt; have hl := l.isLt
    match d with
    | ⟨0, _⟩ => show (((a.val * 8192 + n.val) * 8 + h.val) * 128 + l.val) / 8388608 = a.val; omega
    | ⟨1, _⟩ => show (((a.val * 8192 + n.val) * 8 + h.val) * 128 + l.val) / 1024 % 8192 = n.val; omega
    | ⟨2, _⟩ => show (((a.val * 8192 + n.val) * 8 + h.val) * 128 + l.val) % 1024 = h.val * 128 + l.val; omega)

theorem lidx_eq (a : Fin 4) (n : Fin 8192) (e k : Fin 1024) : lidx_main_v0 (ix3 a n e) k = ix3 a n k :=
  funext fun d => by match d with | ⟨0, _⟩ => rfl | ⟨1, _⟩ => rfl | ⟨2, _⟩ => rfl

theorem ridx_eq (a : Fin 4) (n : Fin 8192) (e k : Fin 1024) : ridx_main_v0 (ix3 a n e) k = ix2 e k :=
  funext fun d => by match d with | ⟨0, _⟩ => rfl | ⟨1, _⟩ => rfl

theorem bidx_eq (a : Fin 4) (n : Fin 8192) (e : Fin 1024) : idx_main_v1 (idx_main_v2 (ix3 a n e)) = ix1 e :=
  funext fun d => by match d with | ⟨0, _⟩ => rfl

/-- The reference's query heads `[4, 8, 8192, 128]`: the linear layer's feature `h·128 + l` of row `(a, n)`. -/
theorem q_apply (x0 : (⟨S4x8192x1024, .f32⟩ : BufTy).Contents (Elt Ideal)) (x3 : (⟨S1024x1024, .f32⟩ : BufTy).Contents (Elt Ideal)) (x4 : (⟨S1024, .f32⟩ : BufTy).Contents (Elt Ideal))
    (a : Fin 4) (n : Fin 8192) (h : Fin 8) (l : Fin 128) :
    rd (val_main_v5 (F := Ideal) x0 x3 x4) (ix4 a h n l) = qH x0 x3 x4 a n h l := by
  show val_main_v5 (F := Ideal) x0 x3 x4 (ix4 a h n l) = lin x0 x3 x4 a n (col h l)
  rw [val_main_v5_apply, val_main_v4_apply, idx_heads, val_main_v3_apply, val_main_v0_apply, val_main_v2_apply,
    val_main_v1_apply, bidx_eq]
  simp only [lidx_eq, ridx_eq, Ideal.addf_def]
  rfl

/-! ## The key heads: the projection, then the normalisation stage by stage -/

section Key

variable (x1 : (⟨S4x8192x1024, .f32⟩ : BufTy).Contents (Elt Ideal)) (x5 : (⟨S1024x1024, .f32⟩ : BufTy).Contents (Elt Ideal))
  (x6 : (⟨S1024, .f32⟩ : BufTy).Contents (Elt Ideal)) (x9 x10 : (⟨S8x128, .f32⟩ : BufTy).Contents (Elt Ideal))
  (a : Fin 4) (n : Fin 8192) (h : Fin 8)

/-- The projected key heads are the query heads' program on the key's arguments. -/
theorem proj_apply (l : Fin 128) :
    val_main_v11 (F := Ideal) x1 x5 x6 (ix4 a h n l) = lin x1 x5 x6 a n (col h l) :=
  q_apply x1 x5 x6 a n h l

theorem idx_lane (k : Fin 128) : idx_main_v18 (ix3 a h n) k = ix4 a h n k :=
  funext fun d => by match d with | ⟨0, _⟩ => rfl | ⟨1, _⟩ => rfl | ⟨2, _⟩ => rfl | ⟨3, _⟩ => rfl

theorem idx_keep (z : Fin 1) : idx_main_v19 (ix4 a h n z) = ix3 a h n :=
  funext fun d => by match d with | ⟨0, _⟩ => rfl | ⟨1, _⟩ => rfl | ⟨2, _⟩ => rfl

theorem idx_lane' (k : Fin 128) : idx_main_v25 (ix3 a h n) k = ix4 a h n k := idx_lane a n h k

theorem idx_keep' (z : Fin 1) : idx_main_v26 (ix4 a h n z) = ix3 a h n := idx_keep a n h z

theorem idx_unit (l : Fin 128) : idx_main_v22 (ix4 a h n l) = ix4 a h n (⟨0, Nat.one_pos⟩ : Fin 1) :=
  funext fun d => by match d with | ⟨0, _⟩ => rfl | ⟨1, _⟩ => rfl | ⟨2, _⟩ => rfl | ⟨3, _⟩ => rfl

theorem idx_tab (l : Fin 128) : idx_main_v36 (idx_main_v37 (ix4 a h n l)) = ix2 h l :=
  funext fun d => by match d with | ⟨0, _⟩ => rfl | ⟨1, _⟩ => rfl

/-- The mean of a head's 128 lanes. -/
theorem mean_apply (z : Fin 1) :
    val_main_v21 (F := Ideal) x1 x5 x6 (ix4 a h n z) = mean128 (fun j => lin x1 x5 x6 a n (col h j)) := by
  rw [val_main_v21_apply, val_main_v19_apply, val_main_v20_apply, val_main_cst_0_apply, idx_keep, val_main_v18_apply,
    val_main_cst_apply]
  simp only [idx_lane, proj_apply, Ideal.hostDivf_def, Ideal.ofBits_def, Ideal.ofBits_zero_f32, zero_add]
  rfl

/-- The deviation from the mean. -/
theorem dev_apply (l : Fin 128) :
    val_main_v23 (F := Ideal) x1 x5 x6 (ix4 a h n l)
      = lin x1 x5 x6 a n (col h l) - mean128 (fun j => lin x1 x5 x6 a n (col h j)) := by
  rw [val_main_v23_apply, val_main_v22_apply, idx_unit, mean_apply, proj_apply]
  rfl

theorem dev_apply' (l : Fin 128) :
    val_main_v30 (F := Ideal) x1 x5 x6 (ix4 a h n l)
      = lin x1 x5 x6 a n (col h l) - mean128 (fun j => lin x1 x5 x6 a n (col h j)) :=
  dev_apply x1 x5 x6 a n h l

/-- The mean of the squared deviations. -/
theorem var_apply (z : Fin 1) :
    val_main_v28 (F := Ideal) x1 x5 x6 (ix4 a h n z)
      = mean128 (fun j => (lin x1 x5 x6 a n (col h j) - mean128 (fun j => lin x1 x5 x6 a n (col h j)))
          * (lin x1 x5 x6 a n (col h j) - mean128 (fun j => lin x1 x5 x6 a n (col h j)))) := by
  rw [val_main_v28_apply, val_main_v26_apply, val_main_v27_apply, val_main_cst_2_apply, idx_keep', val_main_v25_apply,
    val_main_cst_1_apply]
  simp only [idx_lane', val_main_v24_apply, dev_apply, Ideal.mulf_def, Ideal.hostDivf_def, Ideal.ofBits_def,
    Ideal.ofBits_zero_f32, zero_add]
  rfl

/-- The reciprocal root of the variance plus the constant. -/
theorem rstd_apply (z : Fin 1) :
    val_main_v33 (F := Ideal) x1 x5 x6 (ix4 a h n z)
      = Ideal.rsqrt (mean128 (fun j => (lin x1 x5 x6 a n (col h j) - mean128 (fun j => lin x1 x5 x6 a n (col h j)))
          * (lin x1 x5 x6 a n (col h j) - mean128 (fun j => lin x1 x5 x6 a n (col h j)))) + epsLn) := by
  rw [val_main_v33_apply, val_main_v32_apply, val_main_v31_apply, val_main_cst_3_apply, var_apply]
  rfl

end Key

/-- The reference's normalised key heads. -/
theorem k_apply (x1 : (⟨S4x8192x1024, .f32⟩ : BufTy).Contents (Elt Ideal)) (x5 : (⟨S1024x1024, .f32⟩ : BufTy).Contents (Elt Ideal)) (x6 : (⟨S1024, .f32⟩ : BufTy).Contents (Elt Ideal)) (x9 x10 : (⟨S8x128, .f32⟩ : BufTy).Contents (Elt Ideal))
    (a : Fin 4) (n : Fin 8192) (h : Fin 8) (l : Fin 128) :
    rd (val_main_v41 (F := Ideal) x1 x5 x6 x9 x10) (ix4 a h n l) = nH x1 x5 x6 x9 x10 a n h l := by
  show val_main_v41 (F := Ideal) x1 x5 x6 x9 x10 (ix4 a h n l) = _
  rw [val_main_v41_apply, val_main_v38_apply, val_main_v35_apply, val_main_v34_apply, val_main_v37_apply,
    val_main_v36_apply, val_main_v40_apply, val_main_v39_apply, dev_apply', idx_tab,
    show idx_main_v34 (ix4 a h n l) = ix4 a h n (⟨0, Nat.one_pos⟩ : Fin 1) from idx_unit a n h l, rstd_apply,
    show idx_main_v39 (idx_main_v40 (ix4 a h n l)) = ix2 h l from idx_tab a n h l]
  rfl

/-! ## The value heads: the key heads' operations, in the same order, on the value's arguments -/

/-- The reference's normalised value heads. -/
theorem v_apply (x2 : (⟨S4x8192x1024, .f32⟩ : BufTy).Contents (Elt Ideal)) (x7 : (⟨S1024x1024, .f32⟩ : BufTy).Contents (Elt Ideal)) (x8 : (⟨S1024, .f32⟩ : BufTy).Contents (Elt Ideal)) (x11 x12 : (⟨S8x128, .f32⟩ : BufTy).Contents (Elt Ideal))
    (a : Fin 4) (n : Fin 8192) (h : Fin 8) (l : Fin 128) :
    rd (val_main_v65 (F := Ideal) x2 x7 x8 x11 x12) (ix4 a h n l) = nH x2 x7 x8 x11 x12 a n h l :=
  k_apply x2 x7 x8 x11 x12 a n h l

end Cert.ReferenceIdeal.RefHeads

end
-- ==== Proof.RefOut.lean ====
import proofs.«123169_j44882408243764_1_alg».proof.Proof.Gen.ReferenceIdeal.Run
import proofs.«123169_j44882408243764_1_alg».proof.Proof.Gen.ReferenceIdeal.Read
import proofs.«123169_j44882408243764_1_alg».proof.Proof.Spec
import proofs.«123169_j44882408243764_1_alg».proof.Proof.RefHeads
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefOut

open Cert.ReferenceIdeal Cert.ReferenceIdeal.Read Cert.Spec

open Cert.ReferenceIdeal.RefHeads

/-! ### The index maps of the last six operations, at coordinates -/

theorem lidx66 (a : Fin 4) (h : Fin 8) (d e : Fin 128) (k : Fin 8192) :
    lidx_main_v66 (ix4 a h d e) k = ix4 a h k d :=
  funext fun c => Fin.ext (by match c with | ⟨0, _⟩ => rfl | ⟨1, _⟩ => rfl | ⟨2, _⟩ => rfl | ⟨3, _⟩ => rfl)

theorem ridx66 (a : Fin 4) (h : Fin 8) (d e : Fin 128) (k : Fin 8192) :
    ridx_main_v66 (ix4 a h d e) k = ix4 a h k e :=
  funext fun c => Fin.ext (by match c with | ⟨0, _⟩ => rfl | ⟨1, _⟩ => rfl | ⟨2, _⟩ => rfl | ⟨3, _⟩ => rfl)

theorem lidx69 (a : Fin 4) (h : Fin 8) (n : Fin 8192) (e : Fin 128) (k : Fin 128) :
    lidx_main_v69 (ix4 a h n e) k = ix4 a h n k :=
  funext fun c => Fin.ext (by match c with | ⟨0, _⟩ => rfl | ⟨1, _⟩ => rfl | ⟨2, _⟩ => rfl | ⟨3, _⟩ => rfl)

theorem ridx69 (a : Fin 4) (h : Fin 8) (n : Fin 8192) (e : Fin 128) (k : Fin 128) :
    ridx_main_v69 (ix4 a h n e) k = ix4 a h k e :=
  funext fun c => Fin.ext (by match c with | ⟨0, _⟩ => rfl | ⟨1, _⟩ => rfl | ⟨2, _⟩ => rfl | ⟨3, _⟩ => rfl)

theorem idx70 (a : Fin 4) (n : Fin 8192) (h : Fin 8) (e : Fin 128) :
    idx_main_v70 (ix4 a n h e) = ix4 a h n e :=
  funext fun c => Fin.ext (by match c with | ⟨0, _⟩ => rfl | ⟨1, _⟩ => rfl | ⟨2, _⟩ => rfl | ⟨3, _⟩ => rfl)

/-- Feature `h·128 + e` of row `(a, n)` is lane `e` of head `h` of that row. -/
theorem idx71 (a : Fin 4) (n : Fin 8192) (h : Fin 8) (e : Fin 128) :
    idx_main_v71 (ix3 a n (col h e)) = ix4 a n h e :=
  funext fun c => Fin.ext (by
    have ha := a.isLt; have hn := n.isLt; have hh := h.isLt; have he := e.isLt
    match c with
    | ⟨0, _⟩ => show ((a.val * 8192 + n.val) * 1024 + (col h e).val) / 8388608 = a.val; simp only [Spec.col_val]; omega
    | ⟨1, _⟩ => show ((a.val * 8192 + n.val) * 1024 + (col h e).val) / 1024 % 8192 = n.val; simp only [Spec.col_val]; omega
    | ⟨2, _⟩ => show ((a.val * 8192 + n.val) * 1024 + (col h e).val) / 128 % 8 = h.val; simp only [Spec.col_val]; omega
    | ⟨3, _⟩ => show ((a.val * 8192 + n.val) * 1024 + (col h e).val) % 128 = e.val; simp only [Spec.col_val]; omega)

/-- The reference's second result: each head's `Kᵀ·V / 8192` of the normalised heads. -/
theorem p_apply (x1 x2 : (⟨S4x8192x1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 x10 x11 x12 : (⟨S8x128, .f32⟩ : BufTy).Contents (Elt Ideal))
    (a : Fin 4) (h : Fin 8) (d e : Fin 128) :
    rd (val_main_v68 (F := Ideal) x1 x2 x5 x6 x7 x8 x9 x10 x11 x12) (ix4 a h d e)
      = pAttn (nH x1 x5 x6 x9 x10) (nH x2 x7 x8 x11 x12) a h d e := by
  show val_main_v68 (F := Ideal) x1 x2 x5 x6 x7 x8 x9 x10 x11 x12 (ix4 a h d e) = _
  rw [val_main_v68_apply, Ideal.hostDivf_def, val_main_v66_apply, val_main_v67_apply, val_main_cst_9_apply]
  unfold pAttn
  refine congrArg₂ Ideal.div ?_ rfl
  refine Finset.sum_congr rfl fun k _ => ?_
  rw [lidx66, ridx66]
  exact congrArg₂ (· * ·) (k_apply x1 x5 x6 x9 x10 a k h d) (v_apply x2 x7 x8 x11 x12 a k h e)

/-- The reference's first result, at row `(a, n)` and lane `e` of head `h`. -/
theorem a_apply (x0 x1 x2 : (⟨S4x8192x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 x10 x11 x12 : (⟨S8x128, .f32⟩ : BufTy).Contents (Elt Ideal))
    (a : Fin 4) (n : Fin 8192) (h : Fin 8) (e : Fin 128) :
    rd (val_main_v71 (F := Ideal) x0 x1 x2 x3 x4 x5 x6 x7 x8 x9 x10 x11 x12) (ix3 a n (col h e))
      = att (qH x0 x3 x4) (pAttn (nH x1 x5 x6 x9 x10) (nH x2 x7 x8 x11 x12)) a n h e := by
  show val_main_v71 (F := Ideal) x0 x1 x2 x3 x4 x5 x6 x7 x8 x9 x10 x11 x12 (ix3 a n (col h e)) = _
  rw [val_main_v71_apply, idx71, val_main_v70_apply, idx70, val_main_v69_apply]
  unfold att
  refine Finset.sum_congr rfl fun k _ => ?_
  rw [lidx69, ridx69]
  exact congrArg₂ (· * ·) (q_apply x0 x3 x4 a n h k) (p_apply x1 x2 x5 x6 x7 x8 x9 x10 x11 x12 a h k e)

end Cert.ReferenceIdeal.RefOut

end
-- ==== Proof.lean ====
/-
  The certificate's claims.  Both idealized programs compute, over the extended reals, the same functions of the
  thirteen argument arrays (Proof/Spec.lean): three linear layers `x·Wᵀ + b`; the key and value features normalised
  head by head (128 lanes: mean, variance, reciprocal square root, an affine map by per-head tables); each head's
  `Kᵀ·V` over the 8192 rows of a batch, divided by 8192 — the kernel multiplies by `2⁻¹³`, which is the same map of
  every extended real —; and each head's query rows against that matrix.  The two programs differ in how they cut the
  work (four pipelined kernels over row blocks and heads against whole-array host operations with a head axis moved in
  and out by reshapes and transposes) and in nothing else: every sum is over the same index set with the same summands,
  so no law beyond reindexing is used and the precondition is never opened.
  The kernel side: each kernel's result array as one function of its operand arrays (Proof/Region0 … Region3), threaded
  through the program's segments from the launch memory (Proof/Chain.lean), under the program's run with the result
  arrays named (Proof/RunNamed.lean).  The reference side: its generated run, read stage by stage
  (Proof/RefHeads.lean, Proof/RefOut.lean).
-/
import proofs.«123169_j44882408243764_1_alg».proof.Defs
import proofs.«123169_j44882408243764_1_alg».proof.Proof.Gen.Kernel
import proofs.«123169_j44882408243764_1_alg».proof.Proof.Gen.Kernel.Frame
import proofs.«123169_j44882408243764_1_alg».proof.Proof.Gen.KernelIdeal
import proofs.«123169_j44882408243764_1_alg».proof.Proof.Gen.KernelIdeal.Frame
import proofs.«123169_j44882408243764_1_alg».proof.Proof.Gen.ReferenceIdeal
import proofs.«123169_j44882408243764_1_alg».proof.Proof.Gen.ReferenceIdeal.Run
import proofs.«123169_j44882408243764_1_alg».proof.Proof.Gen.ReferenceIdeal.Read
import proofs.«123169_j44882408243764_1_alg».proof.Proof.Gen.Pre_finite_inputs
import proofs.«123169_j44882408243764_1_alg».proof.Proof.Spec
import proofs.«123169_j44882408243764_1_alg».proof.Proof.RunNamed
import proofs.«123169_j44882408243764_1_alg».proof.Proof.Chain
import proofs.«123169_j44882408243764_1_alg».proof.Proof.RefOut
import Idealize.ShloMosaic.Adequacy
import Idealize.ShloMosaic.Init

noncomputable section

namespace Cert.Proof

open Idealize.ShloMosaic Idealize.ShloMosaic.TcCoe Idealize.SL.Sem Idealize.ShloMosaic.ValueIdx

section
variable [hKernel : Cert.Kernel.Facts] [hKernelIdeal : Cert.KernelIdeal.Facts] [hReferenceIdeal : Cert.ReferenceIdeal.Facts]
  [hPre_finite_inputs : Cert.Pre_finite_inputs.Facts]

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the same two arrays: the kernel's are the last
    boundary's contents of its two result buffers, and the reference's stages, read at an index, are the same
    functions of the arguments (an index of the first result is a row, a head and a lane). -/
theorem algebraic : Cert.algebraic_KernelIdeal_ReferenceIdeal := by
  intro m ρ m' ρ' _ hagree
  refine ⟨fun c => Cert.KernelIdeal.Gen.W8 (F := Ideal) m ρ c (Proc.devRef .tc Cert.KernelIdeal.main_v15_0),
    fun c => Cert.KernelIdeal.Gen.W8 (F := Ideal) m ρ c (Proc.devRef .tc Cert.KernelIdeal.main_v15_1),
    Cert.KernelIdeal.Gen.run_named (F := Ideal) m ρ, ?_⟩
  refine (θ_run Cert.ReferenceIdeal.defs _ _).mono (fun _ h c => ?_) (Cert.ReferenceIdeal.Value.run (F := Ideal) m' ρ')
  obtain ⟨h0, h1, hargs⟩ := h c
  obtain ⟨e0, e1, e2, e3, e4, e5, e6, e7, e8, e9, e10, e11, e12⟩ := hagree c
  refine ⟨h0.trans ?_, h1.trans ?_, hargs⟩
  · rw [Cert.ReferenceIdeal.Read.val_main_v71_eq, e0, e1, e2, e3, e4, e5, e6, e7, e8, e9, e10, e11, e12]
    funext i
    obtain ⟨a, n, f, rfl⟩ : ∃ (a : Fin 4) (n : Fin 8192) (f : Fin 1024), i = ix3 a n f := ⟨i 0, i 1, i 2, eq_ix3 i⟩
    obtain ⟨hd, l, rfl⟩ := Cert.Spec.exists_col f
    exact (Cert.ReferenceIdeal.RefOut.a_apply _ _ _ _ _ _ _ _ _ _ _ _ _ a n hd l).trans
      (Cert.KernelIdeal.Chain.out_a m ρ c a n hd l).symm
  · rw [Cert.ReferenceIdeal.Read.val_main_v68_eq, e1, e2, e5, e6, e7, e8, e9, e10, e11, e12]
    funext i
    obtain ⟨a, hd, d, e, rfl⟩ : ∃ (a : Fin 4) (hd : Fin 8) (d e : Fin 128), i = ix4 a hd d e := ⟨i 0, i 1, i 2, i 3, eq_ix4 i⟩
    exact (Cert.ReferenceIdeal.RefOut.p_apply _ _ _ _ _ _ _ _ _ _ a hd d e).trans
      (Cert.KernelIdeal.Chain.out_p m ρ c a hd d e).symm

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
